-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x128 : Shape := ⟨2, ![128, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S200000x128 .f32) (main_arg1 : FVec F S200000x128 .f32) (main_arg2 : FVec F S128x128 .f32) (main_arg3 : FVec F S128x128 .f32) (main_arg4 : FVec F S128x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S200000x128 : Shape := ⟨2, ![200000, 128]⟩
abbrev S128x128 : Shape := ⟨2, ![128, 128]⟩
abbrev S10000x128 : Shape := ⟨2, ![10000, 128]⟩

abbrev nBuf : Space → Nat
  | .hbm => 7
  | .vmem => 14
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S200000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S128x128, .f32⟩
  | .local _ .vmem, ⟨12, _⟩ => ⟨S10000x128, .f32⟩
  | .local _ .vmem, ⟨13, _⟩ => ⟨S10000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v13 : BitVec 1 := Scalar.cmpi .eq arg0 c19_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  dot_S10000x128_S10000x128_S128x128_0_0_1_1_n_n_wf : DotDims.WF S10000x128 S10000x128 S128x128 [0] [0] [1] [1] [] []
  dot_S128x128_S128x128_S128x128_1_0_0_1_n_n_wf : DotDims.WF S128x128 S128x128 S128x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S200000x128.size a
  hwx0_1 : ∀ i : grid0.Coords, EltTy.bits .f32 = 32 ∨ (Rect.block (s := S200000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S200000x128.size a
  hwx1_2 : ∀ i : grid1.Coords, EltTy.bits .f32 = 32 ∨ (Rect.block (s := S200000x128) S10000x128.size (cc1_transform_2 i) (hinb1_2 i)).WholeWords (EltTy.packing .f32)

variable [Facts₀]

def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S128x128 : Shape := ⟨2, ![128, 128]⟩
abbrev S128x200000 : Shape := ⟨2, ![128, 200000]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x200000, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .i1⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .i1⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .i1⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .i1⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S200000x128, .f32⟩
  | .hbm, ⟨42, _⟩ => ⟨S_, .f32⟩
  | .hbm, ⟨43, _⟩ => ⟨S200000x128, .f32⟩
  | .hbm, ⟨44, _⟩ => ⟨S200000x128, .i1⟩
  | .hbm, ⟨45, _⟩ => ⟨S_, .f32⟩
  | .hbm, ⟨46, _⟩ => ⟨S200000x128, .f32⟩
  | .hbm, ⟨47, _⟩ => ⟨S200000x128, .f32⟩
  | .hbm, ⟨48, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  transposes_S200000x128_S128x200000_1_0 : S200000x128.Transposes [1, 0] S128x200000
  bcast_S_S128x128 : S_.BroadcastsInDim S128x128 (![] : Fin 0 → Fin S128x128.rank)
  bcast_S_S200000x128 : S_.BroadcastsInDim S200000x128 (![] : Fin 0 → Fin S200000x128.rank)
  dot_S128x200000_S200000x128_S128x128_1_0_0_1_n_n_wf : DotDims.WF S128x200000 S200000x128 S128x128 [1] [0] [0] [1] [] []
  dot_S128x128_S128x128_S128x128_1_0_0_1_n_n_wf : DotDims.WF S128x128 S128x128 S128x128 [1] [0] [0] [1] [] []
  dot_S200000x128_S128x128_S200000x128_1_0_0_1_n_n_wf : DotDims.WF S200000x128 S128x128 S200000x128 [1] [0] [0] [1] [] []

variable [Facts₀]

def dot_S128x200000_S200000x128_S128x128_1_0_0_1_n_n : DotDims S128x200000 S200000x128 S128x128 where
  lhsContracting := [1]
  rhsContracting := [0]
  lhsNonContracting := [0]
  rhsNonContracting := [1]
  lhsBatch := []
  rhsBatch := []
  wf := dot_S128x200000_S200000x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.K.Common.lean ====
/-
  What the two regions' proofs share: the whole-buffer rectangles the bodies load and store through, the first
  region's two branch conditions decided over its twenty grid points, where its output window is idle, the
  staging memrefs at a point, and the first region's scoped rest spelt out (its scratch accumulator beside the
  second region's staging buffers).
-/
import proofs.«147025_j65481071395086_1_alg».proof.Proof.Gen.Kernel.Launch
import proofs.«147025_j65481071395086_1_alg».proof.Proof.Gen.Kernel.Skeleton
import proofs.«147025_j65481071395086_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles: every load and store of both bodies is of a whole buffer -/

abbrev rW : Rect S128x128 := Rect.unit (s := S128x128) ![0, 0] S128x128.size inb_S128x128_S128x128_0_0
abbrev rT : Rect S10000x128 := Rect.unit (s := S10000x128) ![0, 0] S10000x128.size inb_S10000x128_S10000x128_0_0

/-! ## The first region's branch conditions, decided over the grid -/

/-- "This is the first grid point" as the body computes it. -/
abbrev condFirst (i : grid0.Coords) : Prop :=
  (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- "This is the last grid point" as the body computes it. -/
abbrev condLast (i : grid0.Coords) : Prop := k0_cond2 i = 1#1
theorem hcondLast : ∀ t : Fin cfg0.N, condLast (grid0.coords t) ↔ t.val = 19 :=
  (by decide +kernel : ∀ t : Fin grid0.N, condLast (grid0.coords t) ↔ t.val = 19)

/-! ## Where the first region's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The output window is stored into at the last point only: idle, and not written back, everywhere else. -/
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
theorem liveAt0_5 : ∀ t : Fin cfg0.N, condLast (grid0.coords t) → cfg0.idle 5 (grid0.coords t) = false := by decide +kernel

/-! ## The staging memrefs at a point, as the pipeline passes them -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
/-- The scratch accumulator: a whole scoped buffer of the first kernel's own. -/
abbrev scM0 : Memref sig .tc .vmem S128x128 .f32 := Memref.whole cc0_scratch0

/-! ## The first region's scoped rest -/

/-- The second region's staging buffers, which the first region never touches: each whole at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class invariant of the first region: its scratch at some contents, the second region's staging buffers,
    the generator register at some state. -/
theorem PhiA0_eq (c : Dev nD) :
    (Pipeline.ΦA spec0 c : sProp 𝕄)
      = iprop(iprop((∃ d, owns (c : Thread nD τ) scM0 fullShare d) ∗ otherScoped (F := F) c) ∗ (∃ r, prngReg c r)) := by
  unfold Pipeline.ΦA otherScoped; rw [scopedRest0_eq]; simp only [scM0, owns_whole]; try rfl

end Cert.Kernel.Hand

end
-- ==== Proof.K.Body0.lean ====
/-
  The first kernel's body, run once in each of the three cases its two branches make over the grid:
  the FIRST point (the accumulator is zeroed, then the tile's product is added to it), a MIDDLE point (the
  tile's product is added to what the point before left) and the LAST point (the same, and then the three
  residual layers are applied to the finished accumulator and stored to the output block).  Every load and
  store is of a whole buffer, so what each buffer holds afterwards is the payload itself: the accumulator
  `k0_pay2 adj_tile feature_tile previous`, the output `k0_pay3 accumulator w1 w2 w3`.
-/
import proofs.«147025_j65481071395086_1_alg».proof.Proof.K.Common
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer rectangle, as the lemmas about such rectangles ask for them. -/
theorem hz2 : (![0, 0] : Fin 2 → Nat) = fun _ => 0 := by
  funext a; fin_cases a <;> rfl

/-- One store through the whole-buffer rectangle, read back through any view over any earlier contents, is its
    payload read at the operands' whole contents. -/
theorem read_store_W {sp : Space} (v : View sig .tc sp S128x128 .f32) (f : v.ty.Contents (Elt F)) (w : S128x128.Idx → Elt F .f32) :
    v.read (Elt F) (v.writes (Elt F) f [⟨rW, w⟩]) = w := by
  rw [View.read_writes_eq_canon _ _ _ (fun y => ⟨⟨rW, w⟩, List.mem_singleton_self _, View.mem_set_unit_zero hz2 inb_S128x128_S128x128_0_0 y⟩)]
  exact View.canon_unit_zero hz2 _ w

/-- Two stores through it, the later one first: the later payload. -/
theorem read_store_W2 {sp : Space} (v : View sig .tc sp S128x128 .f32) (f : v.ty.Contents (Elt F)) (w w' : S128x128.Idx → Elt F .f32) :
    v.read (Elt F) (v.writes (Elt F) f [⟨rW, w⟩, ⟨rW, w'⟩]) = w := by
  rw [View.read_writes_eq_canon _ _ _ (fun y => ⟨⟨rW, w⟩, List.mem_cons_self, View.mem_set_unit_zero hz2 inb_S128x128_S128x128_0_0 y⟩)]
  exact View.canon_cons_unit_zero hz2 _ w _

/-- A load through the whole-buffer rectangle reads the contents. -/
theorem ld_W (X : S128x128.Idx → Elt F .f32) : View.ld X rW = X := View.ld_unit_zero hz2 _ X
theorem ld_T (X : S10000x128.Idx → Elt F .f32) : View.ld X rT = X := View.ld_unit_zero hz2 _ X

set_option maxHeartbeats 2000000 in
/-- A MIDDLE point: neither branch is taken; the accumulator `s` becomes `k0_pay2 x0 x1 s`, nothing else changes. -/
theorem run_mid (c : Dev nD) (E : Set ℕ) (i : grid0.Coords) (h1 : ¬condFirst i) (h2 : ¬condLast i)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole)
    (x0 x1 : Vec F S10000x128 .f32) (x2 x3 x4 y6 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y6 ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare y6 ∗ owns (c : Thread nD τ) arg7 fullShare (k0_pay2 x0 x1 s)) -∗ K ⟨⟩))
      ⊢ wp frame (wpE (defs₀ (F := F)) Variants.none c none) E (cc0__reduce_kernel i arg1 harg1 arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  subst hf0; subst hf1; subst hf2; subst hf3; subst hf4; subst hf6; subst hf7
  sl_exec (disch := first | exact h1 | exact h2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  iexists _; isplitr
  swap; · iexact H7
  ipureintro
  rw [read_store_W]
  simp only [View.readAt_eq_ld, View.ld_unit_zero (S := S10000x128) hz2, View.ld_unit_zero (S := S128x128) hz2]

set_option maxHeartbeats 2000000 in
/-- The FIRST point: the accumulator, whatever it held, is zeroed (`k0_pay1`) and then becomes `k0_pay2 x0 x1 k0_pay1`. -/
theorem run_first (c : Dev nD) (E : Set ℕ) (i : grid0.Coords) (h1 : condFirst i) (h2 : ¬condLast i)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole)
    (x0 x1 : Vec F S10000x128 .f32) (x2 x3 x4 y6 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y6 ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare y6 ∗ owns (c : Thread nD τ) arg7 fullShare (k0_pay2 x0 x1 (k0_pay1 (F := F)))) -∗ K ⟨⟩))
      ⊢ wp frame (wpE (defs₀ (F := F)) Variants.none c none) E (cc0__reduce_kernel i arg1 harg1 arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%d7, %f7, -, H7⟩, Hk⟩
  subst hf0; subst hf1; subst hf2; subst hf3; subst hf4; subst hf6
  sl_exec (disch := first | exact h1 | exact h2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  iexists _; isplitr
  swap; · iexact H7
  ipureintro
  rw [read_store_W2, View.readCov_cons_toLoadRect]
  simp only [View.readAt_eq_ld, View.ld_unit_zero (S := S10000x128) hz2, View.ld_unit_zero (S := S128x128) hz2]

set_option maxHeartbeats 2000000 in
/-- The LAST point: the accumulator `s` becomes `k0_pay2 x0 x1 s`, and the output block, whatever it held,
    `k0_pay3` of that and the three weight blocks. -/
theorem run_last (c : Dev nD) (E : Set ℕ) (i : grid0.Coords) (h1 : ¬condFirst i) (h2 : condLast i)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole)
    (x0 x1 : Vec F S10000x128 .f32) (x2 x3 x4 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay3 (k0_pay2 x0 x1 s) x2 x3 x4) ∗ owns (c : Thread nD τ) arg7 fullShare (k0_pay2 x0 x1 s)) -∗ K ⟨⟩))
      ⊢ wp frame (wpE (defs₀ (F := F)) Variants.none c none) E (cc0__reduce_kernel i arg1 harg1 arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0; subst hf1; subst hf2; subst hf3; subst hf4; subst hf7
  sl_exec (disch := first | exact h1 | exact h2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [read_store_W, View.readCov_cons_toLoadRect]
    simp only [View.readAt_eq_ld, View.ld_unit_zero (S := S10000x128) hz2, View.ld_unit_zero (S := S128x128) hz2]
  iexists _; isplitr
  swap; · iexact H7
  ipureintro
  rw [read_store_W]
  simp only [View.readAt_eq_ld, View.ld_unit_zero (S := S10000x128) hz2, View.ld_unit_zero (S := S128x128) hz2]

end Cert.Kernel.Hand

end
-- ==== Proof.K.Region0.lean ====
/-
  The first region (the reduction over the twenty row tiles) as proof data for the pipeline library, at any
  contents `V` of the buffers when the region is entered.

  After the body at point `n` the scratch accumulator holds `accAt n`: at the first point the tile's product
  added to the zero fill, afterwards the tile's product added to what the point before left.  The region's
  invariant carries it from point to point.  The five input windows hold their blocks at every point; the
  output window is idle except at the last point, where it receives the three residual layers applied to the
  finished accumulator (`out5`).
-/
import proofs.«147025_j65481071395086_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the scratch accumulator holds after the body at point `n`. -/
def accAt (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩) (accAt c n (Nat.lt_of_succ_lt hn))

theorem accAt_first (c : Dev nD) (t : Fin cfg0.N) (h : t.val = 0) :
    accAt V c t.val t.isLt = k0_pay2 (iblk0 V c 0 t) (iblk0 V c 1 t) (k0_pay1 (F := F)) := by
  obtain ⟨n, hn⟩ := t
  cases n with
  | zero => rfl
  | succ n => exact absurd h (Nat.succ_ne_zero n)

theorem accAt_later (c : Dev nD) (t : Fin cfg0.N) (h : t.val ≠ 0) :
    accAt V c t.val t.isLt = k0_pay2 (iblk0 V c 0 t) (iblk0 V c 1 t) (accAt V c (t.val - 1) (Nat.lt_of_le_of_lt (Nat.sub_le _ _) t.isLt)) := by
  obtain ⟨n, hn⟩ := t
  cases n with
  | zero => exact absurd rfl h
  | succ n => rfl

/-- What the last point stores to the output block: the three residual layers on the finished accumulator. -/
def out5 (c : Dev nD) (t : Fin cfg0.N) : Vec F S128x128 .f32 :=
  k0_pay3 (accAt V c t.val t.isLt) (iblk0 V c 2 t) (iblk0 V c 3 t) (iblk0 V c 4 t)

/-! ## The invariant: the accumulator carried between points -/

/-- Before point `n`: at the first point the class's invariant (the scratch at anything); afterwards the scratch at
    what the point before left, the other region's staging buffers and the generator register as they were. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ otherScoped (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out5 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out5 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point.  The inputs' buffers hold their blocks; which case the point is in is decided by its
    number; the invariant hands the body the accumulator at what the point before left (at anything at the first
    point) and takes it back at this point's value; the output window is handed back untouched except at the
    last point, where it is left at `out5`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases hl : t.val = 19
  · have hcl : condLast (grid0.coords t) := (hcondLast t).mpr hl
    have hcf : ¬condFirst (grid0.coords t) := fun h => by have := (hcondFirst t).mp h; omega
    have hz : t.val ≠ 0 := by omega
    rw [show (dat0 V c).leavesExact 5 t = owns (c : Thread nD τ) (ms0_5 t) fullShare ((dat0 V c).after 5 t) from by
      unfold Dat.leavesExact; rw [liveAt0_5 t hcl], after0_5]
    unfold out5
    rw [accAt_later V c t hz, PhiS_castSucc V c t, PhiS_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run_last c Set.univ (grid0.coords t) hcf hcl (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
      (iblk0 V c 0 t) (iblk0 V c 1 t) (iblk0 V c 2 t) (iblk0 V c 3 t) (iblk0 V c 4 t) (accAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hcl : ¬condLast (grid0.coords t) := fun h => hl ((hcondLast t).mp h)
    rw [Dat.leavesExact_idle (dat0 V c) 5 t (idleAt0_5 t hcl) (noFlush0_5 t hcl)]
    by_cases hz : t.val = 0
    · have hcf : condFirst (grid0.coords t) := (hcondFirst t).mpr hz
      rw [accAt_first V c t hz, PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_first c Set.univ (grid0.coords t) hcf hcl (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
        (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hcf : ¬condFirst (grid0.coords t) := fun h => hz ((hcondFirst t).mp h)
      rw [accAt_later V c t hz, PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_mid c Set.univ (grid0.coords t) hcf hcl (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
        (iblk0 V c 0 t) (iblk0 V c 1 t) (iblk0 V c 2 t) (iblk0 V c 3 t) (iblk0 V c 4 t) ((dat0 V c).before 5 t d5) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem Phi0_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS, Hoth⟩, Hg⟩
  isplitl [HS Hoth]
  · isplitl [HS]; · iexists _; iexact HS
    iexact Hoth
  iexact Hg

end Region0

end Cert.Kernel.Hand

end
-- ==== Proof.K.Region1.lean ====
/-
  The second region's half of the frame: the blocks its three windows hold at a grid point, what its body leaves
  in the output window's buffer, the body's triple, the pipeline's proof data at the region's entry contents and
  the body obligation over them.
-/
import proofs.«147025_j65481071395086_1_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second region: the propagate kernel, at the entry contents `V`

Each grid point multiplies a block of rows by one fixed 128×128 matrix and applies the leaky rectifier:
two whole-buffer loads, one whole-buffer store, no branch. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the block of the current point, for any proof data over the entry
    arrays whose body leaves that block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix's staging buffer holds the matrix at every point although it is fetched at the first only:
    its block index never moves, so an unfetched point finds what the point before left, which is the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The output staging buffer after the body: one store of the whole buffer, whose value is the leaky
    rectifier of the row block times the matrix, as a function of the two loaded buffers. -/
def out1_2 (x0 : Vec F S10000x128 .f32) (x1 : Vec F S128x128 .f32) : Vec F S10000x128 .f32 :=
  View.canon [⟨rT, k1_pay1 (View.ld x0 rT) (View.ld x1 rW)⟩]

/-- The one store is of the whole buffer, so it covers it. -/
theorem cover1_2 (p0 : Vec F S10000x128 .f32) (y : S10000x128.Idx) :
    ∃ pc ∈ ([⟨rT, p0⟩] : List (View.Piece (Elt F) S10000x128 .f32)), y ∈ pc.1.set :=
  View.cover_of_tiled [⟨rT, p0⟩] S10000x128.size (by rfl) y

/-! ## The body's triple -/

set_option maxHeartbeats 1000000 in
/-- The kernel on whole staging memrefs, the two inputs at read contents `x0`, `x1` and the output at anything,
    runs to a continuation that holds the inputs as they were and the output at `out1_2 x0 x1`. The load of the
    output buffer before the store reads a value nothing uses. -/
theorem sound_kernel1 (c : Dev nD) (E : Set ℕ) (i : grid1.Coords)
    (arg1 : Memref sig .tc .vmem S10000x128 .f32) (harg1 : arg1.IsWhole)
    (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__propagate_kernel i arg1 harg1 arg2 harg2 arg3 harg3) K := by
  simp only [cc1__propagate_kernel_eq_skeleton]; unfold cc1__propagate_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core `c`: the arrays as the region finds them; after the body at
    point `t` each input's buffer at its block and the output's at `out1_2` of the two blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the tally, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant
    and the tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The run of the whole program.  The buffer contents at the regions' boundaries are a fold from the launch
  memory: a region leaves each of its arrays at what its write-backs give and every other buffer as it found
  it.  Each argument array is an input of the regions that touch it, so the fold read at an argument walks
  back to the launch memory.  The two regions are then segments over one thread state (every unscoped buffer
  at the boundary's contents, the generator register at some state, nothing owed), the first entered from the
  launch contents and the second from the first's exit contents, and the launch over the two segments gives
  the final memory at every unscoped buffer.
-/
import proofs.«147025_j65481071395086_1_alg».proof.Proof.K.Region0
import proofs.«147025_j65481071395086_1_alg».proof.Proof.K.Region1
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the first region is entered from. -/
abbrev W0 : Dev nD → Valuation τ sig (Elt F) := fun c b => m (c, b)
/-- The same read at the TensorCore's references. -/
abbrev V1 : (c : Dev nD) → (b : Ref sig .tc) → Buf (Elt F) ((c : Thread nD τ).loc b) := fun c b => W0 m c b
/-- At the first region's exit: its arrays at what the pipeline leaves (an input as entered, the output's
    write-backs folded), every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references: what the second region is entered from. -/
abbrev V2 : (c : Dev nD) → (b : Ref sig .tc) → Buf (Elt F) ((c : Thread nD τ).loc b) := fun c b => W2 m c b
/-- At the first region's exit each of its arrays holds what the pipeline leaves, and every other buffer what
    it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its arrays at what the pipeline leaves, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### What the boundaries hold at the named buffers

An argument is an input window's array of each region that touches it, and an input's array is never written
back; a region that does not touch it leaves it alone. -/

/-- The first region's input window `w` leaves its array at the launch contents. -/
theorem W2_in (c : Dev nD) (w : Fin cfg0.W) (hin : (cfg0.win w).isOut = false) :
    W2 m c (Proc.devRef .tc (Pipeline.arrRef spec0 w)) = V1 m c (Pipeline.arrRef spec0 w) :=
  (W2_arr m c w).trans (((dat0 (V1 m) c).arrAt_in w hin _).trans (A_eq0 (V1 m) c w))

/-- The second region's input window `w` leaves its array at the first region's exit contents. -/
theorem W4_in (c : Dev nD) (w : Fin cfg1.W) (hin : (cfg1.win w).isOut = false) :
    W4 m c (Proc.devRef .tc (Pipeline.arrRef spec1 w)) = V2 m c (Pipeline.arrRef spec1 w) :=
  (W4_arr m c w).trans (((dat1 (V2 m) c).arrAt_in w hin _).trans (A_eq1 (V2 m) c w))

theorem V2_main_arg1 (c : Dev nD) : V2 m c main_arg1 = m ((c : Thread nD τ).loc main_arg1) := W2_in m c 0 rfl
theorem V2_main_v0 (c : Dev nD) : V2 m c main_v0 = (dat0 (V1 m) c).arrAt 5 cfg0.N := W2_arr m c 5

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = m ((c : Thread nD τ).loc main_arg0) := W2_in m c 1 rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_in m c 0 rfl
    _ = m ((c : Thread nD τ).loc main_arg1) := W2_in m c 0 rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = m ((c : Thread nD τ).loc main_arg2) := W2_in m c 2 rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := W4_of_ne m c main_arg3 (by decide)
    _ = m ((c : Thread nD τ).loc main_arg3) := W2_in m c 3 rfl
theorem W4_main_arg4 (c : Dev nD) : W4 m c (Proc.devRef .tc main_arg4) = m ((c : Thread nD τ).loc main_arg4) :=
  calc W4 m c (Proc.devRef .tc main_arg4)
    _ = W2 m c (Proc.devRef .tc main_arg4) := W4_of_ne m c main_arg4 (by decide)
    _ = m ((c : Thread nD τ).loc main_arg4) := W2_in m c 4 rfl
/-- The result is the second region's output array, at what its write-backs leave. -/
theorem W4_main_v1 (c : Dev nD) : W4 m c (Proc.devRef .tc main_v1) = (dat1 (V2 m) c).arrAt 2 cfg1.N := W4_arr m c 2

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state and the core
    owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the
    generator register at some state. -/
abbrev Tₙ (c : Dev nD) : sProp 𝕄 := iprop(StableHlo.held (c : Thread nD τ) (Pipeline.ucRefs τ sig) (W4 m c) ∗ ∃ r, prngReg c r)

/-! ## The regions as segments

Each region's arrays are split out of the unscoped buffers at entry and put back at the exit contents; the
generator register goes into the region's invariant and comes out of it; nothing is owed; neither kernel has
a semaphore of its own.  The first region's invariant is the class's only before the first point and after
the last one: in between it names the accumulator's contents. -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi0_in (V1 m) c)
    unfold Pipeline.ΦA
    iintro ⟨Hp, -, Hr⟩
    isplitl [Hr]; · iexact Hr
    iexact Hp
  hout c := by
    rw [Pipeline.ownSems0_none]
    refine BIBase.Entails.trans (Phi0_out (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments: one region per call, in order. -/
abbrev segs : List (Pipeline.Seg (pcfgs (F := F)) adm (pdats m) () defs₀ 𝒱₀ L lv) :=
  [ .region (reg0 m), .region (reg1 m) ]
/-- The program is the run of the two segments. -/
theorem main_run (c : Dev nD) : main (F := F) c = Pipeline.Seg.run (segs m) := (main_chain c).trans (by chain_rfl)

set_option backward.isDefEq.respectTransparency.types false in
/-- From any memory with zero counters every weakly fair execution of the program on the TensorCores
    terminates, nothing faulting, and the final memory holds the last boundary's contents at every unscoped
    buffer. -/
theorem run_main : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

set_option backward.isDefEq.respectTransparency.types false in
/-- The frame: the program runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.Kernel.Hand

end
-- ==== Proof.KI.Common.lean ====
/-
  What the two regions' proofs share: the whole-buffer rectangles the bodies load and store through, the first
  region's two branch conditions decided over its twenty grid points, where its output window is idle, the
  staging memrefs at a point, and the first region's scoped rest spelt out (its scratch accumulator beside the
  second region's staging buffers).
-/
import proofs.«147025_j65481071395086_1_alg».proof.Proof.Gen.KernelIdeal.Launch
import proofs.«147025_j65481071395086_1_alg».proof.Proof.Gen.KernelIdeal.Skeleton
import proofs.«147025_j65481071395086_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles: every load and store of both bodies is of a whole buffer -/

abbrev rW : Rect S128x128 := Rect.unit (s := S128x128) ![0, 0] S128x128.size inb_S128x128_S128x128_0_0
abbrev rT : Rect S10000x128 := Rect.unit (s := S10000x128) ![0, 0] S10000x128.size inb_S10000x128_S10000x128_0_0

/-! ## The first region's branch conditions, decided over the grid -/

/-- "This is the first grid point" as the body computes it. -/
abbrev condFirst (i : grid0.Coords) : Prop :=
  (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- "This is the last grid point" as the body computes it. -/
abbrev condLast (i : grid0.Coords) : Prop := k0_cond2 i = 1#1
theorem hcondLast : ∀ t : Fin cfg0.N, condLast (grid0.coords t) ↔ t.val = 19 :=
  (by decide +kernel : ∀ t : Fin grid0.N, condLast (grid0.coords t) ↔ t.val = 19)

/-! ## Where the first region's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The output window is stored into at the last point only: idle, and not written back, everywhere else. -/
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
theorem liveAt0_5 : ∀ t : Fin cfg0.N, condLast (grid0.coords t) → cfg0.idle 5 (grid0.coords t) = false := by decide +kernel

/-! ## The staging memrefs at a point, as the pipeline passes them -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
/-- The scratch accumulator: a whole scoped buffer of the first kernel's own. -/
abbrev scM0 : Memref sig .tc .vmem S128x128 .f32 := Memref.whole cc0_scratch0

/-! ## The first region's scoped rest -/

/-- The second region's staging buffers, which the first region never touches: each whole at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class invariant of the first region: its scratch at some contents, the second region's staging buffers,
    the generator register at some state. -/
theorem PhiA0_eq (c : Dev nD) :
    (Pipeline.ΦA spec0 c : sProp 𝕄)
      = iprop(iprop((∃ d, owns (c : Thread nD τ) scM0 fullShare d) ∗ otherScoped (F := F) c) ∗ (∃ r, prngReg c r)) := by
  unfold Pipeline.ΦA otherScoped; rw [scopedRest0_eq]; simp only [scM0, owns_whole]; try rfl

end Cert.KernelIdeal.Hand

end
-- ==== Proof.KI.Body0.lean ====
/-
  The first kernel's body, run once in each of the three cases its two branches make over the grid:
  the FIRST point (the accumulator is zeroed, then the tile's product is added to it), a MIDDLE point (the
  tile's product is added to what the point before left) and the LAST point (the same, and then the three
  residual layers are applied to the finished accumulator and stored to the output block).  Every load and
  store is of a whole buffer, so what each buffer holds afterwards is the payload itself: the accumulator
  `k0_pay2 adj_tile feature_tile previous`, the output `k0_pay3 accumulator w1 w2 w3`.
-/
import proofs.«147025_j65481071395086_1_alg».proof.Proof.KI.Common
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer rectangle, as the lemmas about such rectangles ask for them. -/
theorem hz2 : (![0, 0] : Fin 2 → Nat) = fun _ => 0 := by
  funext a; fin_cases a <;> rfl

/-- One store through the whole-buffer rectangle, read back through any view over any earlier contents, is its
    payload read at the operands' whole contents. -/
theorem read_store_W {sp : Space} (v : View sig .tc sp S128x128 .f32) (f : v.ty.Contents (Elt F)) (w : S128x128.Idx → Elt F .f32) :
    v.read (Elt F) (v.writes (Elt F) f [⟨rW, w⟩]) = w := by
  rw [View.read_writes_eq_canon _ _ _ (fun y => ⟨⟨rW, w⟩, List.mem_singleton_self _, View.mem_set_unit_zero hz2 inb_S128x128_S128x128_0_0 y⟩)]
  exact View.canon_unit_zero hz2 _ w

/-- Two stores through it, the later one first: the later payload. -/
theorem read_store_W2 {sp : Space} (v : View sig .tc sp S128x128 .f32) (f : v.ty.Contents (Elt F)) (w w' : S128x128.Idx → Elt F .f32) :
    v.read (Elt F) (v.writes (Elt F) f [⟨rW, w⟩, ⟨rW, w'⟩]) = w := by
  rw [View.read_writes_eq_canon _ _ _ (fun y => ⟨⟨rW, w⟩, List.mem_cons_self, View.mem_set_unit_zero hz2 inb_S128x128_S128x128_0_0 y⟩)]
  exact View.canon_cons_unit_zero hz2 _ w _

/-- A load through the whole-buffer rectangle reads the contents. -/
theorem ld_W (X : S128x128.Idx → Elt F .f32) : View.ld X rW = X := View.ld_unit_zero hz2 _ X
theorem ld_T (X : S10000x128.Idx → Elt F .f32) : View.ld X rT = X := View.ld_unit_zero hz2 _ X

set_option maxHeartbeats 2000000 in
/-- A MIDDLE point: neither branch is taken; the accumulator `s` becomes `k0_pay2 x0 x1 s`, nothing else changes. -/
theorem run_mid (c : Dev nD) (E : Set ℕ) (i : grid0.Coords) (h1 : ¬condFirst i) (h2 : ¬condLast i)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole)
    (x0 x1 : Vec F S10000x128 .f32) (x2 x3 x4 y6 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y6 ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare y6 ∗ owns (c : Thread nD τ) arg7 fullShare (k0_pay2 x0 x1 s)) -∗ K ⟨⟩))
      ⊢ wp frame (wpE (defs₀ (F := F)) Variants.none c none) E (cc0__reduce_kernel i arg1 harg1 arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  subst hf0; subst hf1; subst hf2; subst hf3; subst hf4; subst hf6; subst hf7
  sl_exec (disch := first | exact h1 | exact h2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  iexists _; isplitr
  swap; · iexact H7
  ipureintro
  rw [read_store_W]
  simp only [View.readAt_eq_ld, View.ld_unit_zero (S := S10000x128) hz2, View.ld_unit_zero (S := S128x128) hz2]

set_option maxHeartbeats 2000000 in
/-- The FIRST point: the accumulator, whatever it held, is zeroed (`k0_pay1`) and then becomes `k0_pay2 x0 x1 k0_pay1`. -/
theorem run_first (c : Dev nD) (E : Set ℕ) (i : grid0.Coords) (h1 : condFirst i) (h2 : ¬condLast i)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole)
    (x0 x1 : Vec F S10000x128 .f32) (x2 x3 x4 y6 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y6 ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare y6 ∗ owns (c : Thread nD τ) arg7 fullShare (k0_pay2 x0 x1 (k0_pay1 (F := F)))) -∗ K ⟨⟩))
      ⊢ wp frame (wpE (defs₀ (F := F)) Variants.none c none) E (cc0__reduce_kernel i arg1 harg1 arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%d7, %f7, -, H7⟩, Hk⟩
  subst hf0; subst hf1; subst hf2; subst hf3; subst hf4; subst hf6
  sl_exec (disch := first | exact h1 | exact h2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  iexists _; isplitr
  swap; · iexact H7
  ipureintro
  rw [read_store_W2, View.readCov_cons_toLoadRect]
  simp only [View.readAt_eq_ld, View.ld_unit_zero (S := S10000x128) hz2, View.ld_unit_zero (S := S128x128) hz2]

set_option maxHeartbeats 2000000 in
/-- The LAST point: the accumulator `s` becomes `k0_pay2 x0 x1 s`, and the output block, whatever it held,
    `k0_pay3` of that and the three weight blocks. -/
theorem run_last (c : Dev nD) (E : Set ℕ) (i : grid0.Coords) (h1 : ¬condFirst i) (h2 : condLast i)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole)
    (x0 x1 : Vec F S10000x128 .f32) (x2 x3 x4 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay3 (k0_pay2 x0 x1 s) x2 x3 x4) ∗ owns (c : Thread nD τ) arg7 fullShare (k0_pay2 x0 x1 s)) -∗ K ⟨⟩))
      ⊢ wp frame (wpE (defs₀ (F := F)) Variants.none c none) E (cc0__reduce_kernel i arg1 harg1 arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0; subst hf1; subst hf2; subst hf3; subst hf4; subst hf7
  sl_exec (disch := first | exact h1 | exact h2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [read_store_W, View.readCov_cons_toLoadRect]
    simp only [View.readAt_eq_ld, View.ld_unit_zero (S := S10000x128) hz2, View.ld_unit_zero (S := S128x128) hz2]
  iexists _; isplitr
  swap; · iexact H7
  ipureintro
  rw [read_store_W]
  simp only [View.readAt_eq_ld, View.ld_unit_zero (S := S10000x128) hz2, View.ld_unit_zero (S := S128x128) hz2]

end Cert.KernelIdeal.Hand

end
-- ==== Proof.KI.Region0.lean ====
/-
  The first region (the reduction over the twenty row tiles) as proof data for the pipeline library, at any
  contents `V` of the buffers when the region is entered.

  After the body at point `n` the scratch accumulator holds `accAt n`: at the first point the tile's product
  added to the zero fill, afterwards the tile's product added to what the point before left.  The region's
  invariant carries it from point to point.  The five input windows hold their blocks at every point; the
  output window is idle except at the last point, where it receives the three residual layers applied to the
  finished accumulator (`out5`).
-/
import proofs.«147025_j65481071395086_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the scratch accumulator holds after the body at point `n`. -/
def accAt (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩) (accAt c n (Nat.lt_of_succ_lt hn))

theorem accAt_first (c : Dev nD) (t : Fin cfg0.N) (h : t.val = 0) :
    accAt V c t.val t.isLt = k0_pay2 (iblk0 V c 0 t) (iblk0 V c 1 t) (k0_pay1 (F := F)) := by
  obtain ⟨n, hn⟩ := t
  cases n with
  | zero => rfl
  | succ n => exact absurd h (Nat.succ_ne_zero n)

theorem accAt_later (c : Dev nD) (t : Fin cfg0.N) (h : t.val ≠ 0) :
    accAt V c t.val t.isLt = k0_pay2 (iblk0 V c 0 t) (iblk0 V c 1 t) (accAt V c (t.val - 1) (Nat.lt_of_le_of_lt (Nat.sub_le _ _) t.isLt)) := by
  obtain ⟨n, hn⟩ := t
  cases n with
  | zero => exact absurd rfl h
  | succ n => rfl

/-- What the last point stores to the output block: the three residual layers on the finished accumulator. -/
def out5 (c : Dev nD) (t : Fin cfg0.N) : Vec F S128x128 .f32 :=
  k0_pay3 (accAt V c t.val t.isLt) (iblk0 V c 2 t) (iblk0 V c 3 t) (iblk0 V c 4 t)

/-! ## The invariant: the accumulator carried between points -/

/-- Before point `n`: at the first point the class's invariant (the scratch at anything); afterwards the scratch at
    what the point before left, the other region's staging buffers and the generator register as they were. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ otherScoped (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out5 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out5 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point.  The inputs' buffers hold their blocks; which case the point is in is decided by its
    number; the invariant hands the body the accumulator at what the point before left (at anything at the first
    point) and takes it back at this point's value; the output window is handed back untouched except at the
    last point, where it is left at `out5`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases hl : t.val = 19
  · have hcl : condLast (grid0.coords t) := (hcondLast t).mpr hl
    have hcf : ¬condFirst (grid0.coords t) := fun h => by have := (hcondFirst t).mp h; omega
    have hz : t.val ≠ 0 := by omega
    rw [show (dat0 V c).leavesExact 5 t = owns (c : Thread nD τ) (ms0_5 t) fullShare ((dat0 V c).after 5 t) from by
      unfold Dat.leavesExact; rw [liveAt0_5 t hcl], after0_5]
    unfold out5
    rw [accAt_later V c t hz, PhiS_castSucc V c t, PhiS_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run_last c Set.univ (grid0.coords t) hcf hcl (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
      (iblk0 V c 0 t) (iblk0 V c 1 t) (iblk0 V c 2 t) (iblk0 V c 3 t) (iblk0 V c 4 t) (accAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hcl : ¬condLast (grid0.coords t) := fun h => hl ((hcondLast t).mp h)
    rw [Dat.leavesExact_idle (dat0 V c) 5 t (idleAt0_5 t hcl) (noFlush0_5 t hcl)]
    by_cases hz : t.val = 0
    · have hcf : condFirst (grid0.coords t) := (hcondFirst t).mpr hz
      rw [accAt_first V c t hz, PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_first c Set.univ (grid0.coords t) hcf hcl (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
        (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hcf : ¬condFirst (grid0.coords t) := fun h => hz ((hcondFirst t).mp h)
      rw [accAt_later V c t hz, PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_mid c Set.univ (grid0.coords t) hcf hcl (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
        (iblk0 V c 0 t) (iblk0 V c 1 t) (iblk0 V c 2 t) (iblk0 V c 3 t) (iblk0 V c 4 t) ((dat0 V c).before 5 t d5) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem Phi0_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS, Hoth⟩, Hg⟩
  isplitl [HS Hoth]
  · isplitl [HS]; · iexists _; iexact HS
    iexact Hoth
  iexact Hg

end Region0

end Cert.KernelIdeal.Hand

end
-- ==== Proof.KI.Region1.lean ====
/-
  The second region's half of the frame: the blocks its three windows hold at a grid point, what its body leaves
  in the output window's buffer, the body's triple, the pipeline's proof data at the region's entry contents and
  the body obligation over them.
-/
import proofs.«147025_j65481071395086_1_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second region: the propagate kernel, at the entry contents `V`

Each grid point multiplies a block of rows by one fixed 128×128 matrix and applies the leaky rectifier:
two whole-buffer loads, one whole-buffer store, no branch. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the block of the current point, for any proof data over the entry
    arrays whose body leaves that block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix's staging buffer holds the matrix at every point although it is fetched at the first only:
    its block index never moves, so an unfetched point finds what the point before left, which is the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The output staging buffer after the body: one store of the whole buffer, whose value is the leaky
    rectifier of the row block times the matrix, as a function of the two loaded buffers. -/
def out1_2 (x0 : Vec F S10000x128 .f32) (x1 : Vec F S128x128 .f32) : Vec F S10000x128 .f32 :=
  View.canon [⟨rT, k1_pay1 (View.ld x0 rT) (View.ld x1 rW)⟩]

/-- The one store is of the whole buffer, so it covers it. -/
theorem cover1_2 (p0 : Vec F S10000x128 .f32) (y : S10000x128.Idx) :
    ∃ pc ∈ ([⟨rT, p0⟩] : List (View.Piece (Elt F) S10000x128 .f32)), y ∈ pc.1.set :=
  View.cover_of_tiled [⟨rT, p0⟩] S10000x128.size (by rfl) y

/-! ## The body's triple -/

set_option maxHeartbeats 1000000 in
/-- The kernel on whole staging memrefs, the two inputs at read contents `x0`, `x1` and the output at anything,
    runs to a continuation that holds the inputs as they were and the output at `out1_2 x0 x1`. The load of the
    output buffer before the store reads a value nothing uses. -/
theorem sound_kernel1 (c : Dev nD) (E : Set ℕ) (i : grid1.Coords)
    (arg1 : Memref sig .tc .vmem S10000x128 .f32) (harg1 : arg1.IsWhole)
    (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__propagate_kernel i arg1 harg1 arg2 harg2 arg3 harg3) K := by
  simp only [cc1__propagate_kernel_eq_skeleton]; unfold cc1__propagate_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core `c`: the arrays as the region finds them; after the body at
    point `t` each input's buffer at its block and the output's at `out1_2` of the two blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the tally, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant
    and the tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The run of the whole program.  The buffer contents at the regions' boundaries are a fold from the launch
  memory: a region leaves each of its arrays at what its write-backs give and every other buffer as it found
  it.  Each argument array is an input of the regions that touch it, so the fold read at an argument walks
  back to the launch memory.  The two regions are then segments over one thread state (every unscoped buffer
  at the boundary's contents, the generator register at some state, nothing owed), the first entered from the
  launch contents and the second from the first's exit contents, and the launch over the two segments gives
  the final memory at every unscoped buffer.
-/
import proofs.«147025_j65481071395086_1_alg».proof.Proof.KI.Region0
import proofs.«147025_j65481071395086_1_alg».proof.Proof.KI.Region1
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the first region is entered from. -/
abbrev W0 : Dev nD → Valuation τ sig (Elt F) := fun c b => m (c, b)
/-- The same read at the TensorCore's references. -/
abbrev V1 : (c : Dev nD) → (b : Ref sig .tc) → Buf (Elt F) ((c : Thread nD τ).loc b) := fun c b => W0 m c b
/-- At the first region's exit: its arrays at what the pipeline leaves (an input as entered, the output's
    write-backs folded), every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references: what the second region is entered from. -/
abbrev V2 : (c : Dev nD) → (b : Ref sig .tc) → Buf (Elt F) ((c : Thread nD τ).loc b) := fun c b => W2 m c b
/-- At the first region's exit each of its arrays holds what the pipeline leaves, and every other buffer what
    it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its arrays at what the pipeline leaves, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### What the boundaries hold at the named buffers

An argument is an input window's array of each region that touches it, and an input's array is never written
back; a region that does not touch it leaves it alone. -/

/-- The first region's input window `w` leaves its array at the launch contents. -/
theorem W2_in (c : Dev nD) (w : Fin cfg0.W) (hin : (cfg0.win w).isOut = false) :
    W2 m c (Proc.devRef .tc (Pipeline.arrRef spec0 w)) = V1 m c (Pipeline.arrRef spec0 w) :=
  (W2_arr m c w).trans (((dat0 (V1 m) c).arrAt_in w hin _).trans (A_eq0 (V1 m) c w))

/-- The second region's input window `w` leaves its array at the first region's exit contents. -/
theorem W4_in (c : Dev nD) (w : Fin cfg1.W) (hin : (cfg1.win w).isOut = false) :
    W4 m c (Proc.devRef .tc (Pipeline.arrRef spec1 w)) = V2 m c (Pipeline.arrRef spec1 w) :=
  (W4_arr m c w).trans (((dat1 (V2 m) c).arrAt_in w hin _).trans (A_eq1 (V2 m) c w))

theorem V2_main_arg1 (c : Dev nD) : V2 m c main_arg1 = m ((c : Thread nD τ).loc main_arg1) := W2_in m c 0 rfl
theorem V2_main_v0 (c : Dev nD) : V2 m c main_v0 = (dat0 (V1 m) c).arrAt 5 cfg0.N := W2_arr m c 5

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = m ((c : Thread nD τ).loc main_arg0) := W2_in m c 1 rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_in m c 0 rfl
    _ = m ((c : Thread nD τ).loc main_arg1) := W2_in m c 0 rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = m ((c : Thread nD τ).loc main_arg2) := W2_in m c 2 rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := W4_of_ne m c main_arg3 (by decide)
    _ = m ((c : Thread nD τ).loc main_arg3) := W2_in m c 3 rfl
theorem W4_main_arg4 (c : Dev nD) : W4 m c (Proc.devRef .tc main_arg4) = m ((c : Thread nD τ).loc main_arg4) :=
  calc W4 m c (Proc.devRef .tc main_arg4)
    _ = W2 m c (Proc.devRef .tc main_arg4) := W4_of_ne m c main_arg4 (by decide)
    _ = m ((c : Thread nD τ).loc main_arg4) := W2_in m c 4 rfl
/-- The result is the second region's output array, at what its write-backs leave. -/
theorem W4_main_v1 (c : Dev nD) : W4 m c (Proc.devRef .tc main_v1) = (dat1 (V2 m) c).arrAt 2 cfg1.N := W4_arr m c 2

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state and the core
    owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the
    generator register at some state. -/
abbrev Tₙ (c : Dev nD) : sProp 𝕄 := iprop(StableHlo.held (c : Thread nD τ) (Pipeline.ucRefs τ sig) (W4 m c) ∗ ∃ r, prngReg c r)

/-! ## The regions as segments

Each region's arrays are split out of the unscoped buffers at entry and put back at the exit contents; the
generator register goes into the region's invariant and comes out of it; nothing is owed; neither kernel has
a semaphore of its own.  The first region's invariant is the class's only before the first point and after
the last one: in between it names the accumulator's contents. -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi0_in (V1 m) c)
    unfold Pipeline.ΦA
    iintro ⟨Hp, -, Hr⟩
    isplitl [Hr]; · iexact Hr
    iexact Hp
  hout c := by
    rw [Pipeline.ownSems0_none]
    refine BIBase.Entails.trans (Phi0_out (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments: one region per call, in order. -/
abbrev segs : List (Pipeline.Seg (pcfgs (F := F)) adm (pdats m) () defs₀ 𝒱₀ L lv) :=
  [ .region (reg0 m), .region (reg1 m) ]
/-- The program is the run of the two segments. -/
theorem main_run (c : Dev nD) : main (F := F) c = Pipeline.Seg.run (segs m) := (main_chain c).trans (by chain_rfl)

set_option backward.isDefEq.respectTransparency.types false in
/-- From any memory with zero counters every weakly fair execution of the program on the TensorCores
    terminates, nothing faulting, and the final memory holds the last boundary's contents at every unscoped
    buffer. -/
theorem run_main : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

set_option backward.isDefEq.respectTransparency.types false in
/-- The frame: the program runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.KernelIdeal.Hand

end
-- ==== Proof.Val.Spec.lean ====
/-
  The function both programs compute, written once over the argument arrays, index by index, on the
  extended reals.  With `lk x = x` for `x ≥ 0` and `c · x` otherwise (c the shared literal 0x3D4CCCCD):

    f1[h,e]      = lk (∑ n, adj[n,h] · feature[n,e])              (the contraction over all 200000 rows)
    f_{i+1}[h,e] = lk (∑ k, w_i[h,k] · f_i[k,e]) + f_i[h,e]       (three residual layers: w1, w2, w3)
    out[n,e]     = lk (∑ h, adj[n,h] · f4[h,e])

  and the one law the tiling needs: a sum over 200000 rows is the sum over 20 tiles of the sums over each
  tile's 10000 rows (addition on the extended reals is commutative and associative: no finiteness is used).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the problem: the tall arrays, the square ones, one tile of 10000 rows. -/
abbrev SN : Shape := ⟨2, ![200000, 128]⟩
abbrev SW : Shape := ⟨2, ![128, 128]⟩
abbrev ST : Shape := ⟨2, ![10000, 128]⟩

/-- The leaky rectifier on one extended real, spelt with the operations both programs use. -/
def lk (x : EReal) : EReal :=
  Scalar.select (FloatOps.cmpf (F := Ideal) (φ := .f32) .oge x (FloatOps.ofBits .f32 0x00000000#32)) x
    (FloatOps.mulf (F := Ideal) (φ := .f32) (FloatOps.ofBits .f32 0x3D4CCCCD#32) x)

/-- The contraction of `adj` and `feature` over every row, before the rectifier. -/
def s1 (a f : FVec Ideal SN .f32) (h e : Fin 128) : EReal :=
  ∑ n : Fin 200000, a (ix2 n h) * f (ix2 n e)

/-- The first stage. -/
def f1 (a f : FVec Ideal SN .f32) (h e : Fin 128) : EReal := lk (s1 a f h e)

/-- One residual layer: `lk (w · g) + g`. -/
def layer (w : FVec Ideal SW .f32) (g : Fin 128 → Fin 128 → EReal) (h e : Fin 128) : EReal :=
  lk (∑ k : Fin 128, w (ix2 h k) * g k e) + g h e

/-- The 128 × 128 matrix the second stage multiplies `adj` by, from the first stage's matrix. -/
def chain (w1 w2 w3 : FVec Ideal SW .f32) (g : Fin 128 → Fin 128 → EReal) : Fin 128 → Fin 128 → EReal :=
  layer w3 (layer w2 (layer w1 g))

/-- The same from the arguments. -/
def f4 (f a : FVec Ideal SN .f32) (w1 w2 w3 : FVec Ideal SW .f32) : Fin 128 → Fin 128 → EReal :=
  chain w1 w2 w3 (f1 a f)

/-- One row of the second stage against any 128 × 128 matrix. -/
def prop (a : FVec Ideal SN .f32) (g : Fin 128 → Fin 128 → EReal) (n : Fin 200000) (e : Fin 128) : EReal :=
  lk (∑ h : Fin 128, a (ix2 n h) * g h e)

/-- THE RESULT, as one function of the five argument arrays (in the programs' argument order:
    feature, adj, w1, w2, w3). -/
def G (f a : FVec Ideal SN .f32) (w1 w2 w3 : FVec Ideal SW .f32) : FVec Ideal SN .f32 :=
  fun j => prop a (f4 f a w1 w2 w3) (j 0) (j 1)

/-- The tiling law: the sum over the 200000 rows is the sum over the 20 tiles of each tile's 10000 rows,
    row `r` of tile `t` being row `t · 10000 + r`. -/
theorem sum_rows_tiled (g : Fin 200000 → EReal) :
    ∑ n : Fin 200000, g n
      = ∑ t : Fin 20, ∑ r : Fin 10000, g ⟨t.val * 10000 + r.val, by have := t.isLt; have := r.isLt; omega⟩ := by
  rw [← Finset.sum_product', ← (finProdFinEquiv (m := 20) (n := 10000)).sum_comp]
  refine Finset.sum_congr rfl fun p _ => congrArg g (Fin.ext ?_)
  simp only [finProdFinEquiv_apply_val]
  omega

end Cert.Spec

end
-- ==== Proof.Val.RefValue.lean ====
/-
  The reference's run, read one operation at a time, is the specification `Cert.Spec.G` of its arguments.

  Read bottom-up, at an index split into its two coordinates: the first contraction (over the 200000 rows, its left
  operand the transpose of `adj`) is `Spec.s1`; the rectifier of it is `Spec.f1`; each of the three residual layers
  is a contraction with one square matrix, the rectifier, and the sum with the layer's input (`Spec.layer`); the last
  contraction multiplies `adj` by the resulting 128 × 128 matrix and the rectifier of it is `Spec.prop`. The float
  literals (the zero the comparison is against, the slope of the rectifier) are the same words on both sides and are
  never evaluated.
-/
import proofs.«147025_j65481071395086_1_alg».proof.Proof.RefRead
import proofs.«147025_j65481071395086_1_alg».proof.Proof.Val.Spec

noncomputable section

namespace Cert.RefValue

open Idealize.ShloMosaic Idealize.ShloMosaic.ValueIdx Cert.Spec
open Cert.ReferenceIdeal

/-! ## The first stage: the contraction over all rows, then the rectifier -/

/-- The first contraction at `(h, e)`: the transpose read back through, it is the sum over every row `n` of
    `adj[n,h] · feature[n,e]`. -/
theorem contraction_at (x0 x1 : (⟨Cert.ReferenceIdeal.S200000x128, .f32⟩ : BufTy).Contents (Elt Ideal)) (h e : Fin 128) :
    ReadP.val_main_v1 (F := Ideal) x0 x1 (ix2 h e) = Spec.s1 x1 x0 h e := by
  rw [ReadP.val_main_v1_apply]
  unfold Spec.s1
  refine Finset.sum_congr rfl fun n _ => ?_
  rw [ReadP.val_main_v0_apply,
    show ReadP.idx_main_v0 (ReadP.lidx_main_v1 (ix2 h e) n) = ix2 n h from funext fun a => Fin.ext (by match a with | ⟨0, _⟩ => rfl | ⟨1, _⟩ => rfl),
    show ReadP.ridx_main_v1 (ix2 h e) n = ix2 n e from funext fun a => Fin.ext (by match a with | ⟨0, _⟩ => rfl | ⟨1, _⟩ => rfl)]

/-- The first stage at `(h, e)`: the rectifier of that contraction. -/
theorem first_at (x0 x1 : (⟨Cert.ReferenceIdeal.S200000x128, .f32⟩ : BufTy).Contents (Elt Ideal)) (h e : Fin 128) :
    ReadP.val_main_v6 (F := Ideal) x0 x1 (ix2 h e) = Spec.f1 x1 x0 h e := by
  rw [ReadP.val_main_v6_apply, ReadP.val_main_v3_apply, ReadP.val_main_v5_apply, ReadP.val_main_v2_apply,
    ReadP.val_main_v4_apply, ReadP.val_main_cst_apply, ReadP.val_main_cst_0_apply, contraction_at]
  rfl

/-! ## The three residual layers -/

/-- The first residual layer's contraction at `(h, e)`: the sum over `k` of `w1[h,k]` times the previous matrix at `(k, e)`. -/
theorem dot1_at (x0 x1 : (⟨Cert.ReferenceIdeal.S200000x128, .f32⟩ : BufTy).Contents (Elt Ideal))
    (x2 : (⟨Cert.ReferenceIdeal.S128x128, .f32⟩ : BufTy).Contents (Elt Ideal)) (h e : Fin 128) :
    ReadP.val_main_v7 (F := Ideal) x0 x1 x2 (ix2 h e) = ∑ k : Fin 128, x2 (ix2 h k) * Spec.f1 x1 x0 k e := by
  rw [ReadP.val_main_v7_apply]
  refine Finset.sum_congr rfl fun k _ => ?_
  rw [show ReadP.lidx_main_v7 (ix2 h e) k = ix2 h k from funext fun a => Fin.ext (by match a with | ⟨0, _⟩ => rfl | ⟨1, _⟩ => rfl),
    show ReadP.ridx_main_v7 (ix2 h e) k = ix2 k e from funext fun a => Fin.ext (by match a with | ⟨0, _⟩ => rfl | ⟨1, _⟩ => rfl), first_at]

/-- The first residual layer at `(h, e)`: the rectifier of that contraction, plus the previous matrix at `(h, e)`. -/
theorem layer1_at (x0 x1 : (⟨Cert.ReferenceIdeal.S200000x128, .f32⟩ : BufTy).Contents (Elt Ideal))
    (x2 : (⟨Cert.ReferenceIdeal.S128x128, .f32⟩ : BufTy).Contents (Elt Ideal)) (h e : Fin 128) :
    ReadP.val_main_v13 (F := Ideal) x0 x1 x2 (ix2 h e) = Spec.layer x2 (Spec.f1 x1 x0) h e := by
  rw [ReadP.val_main_v13_apply, ReadP.val_main_v12_apply, ReadP.val_main_v9_apply, ReadP.val_main_v11_apply, ReadP.val_main_v8_apply,
    ReadP.val_main_v10_apply, ReadP.val_main_cst_1_apply, ReadP.val_main_cst_2_apply, dot1_at, first_at]
  rfl

/-- The second residual layer's contraction at `(h, e)`: the sum over `k` of `w2[h,k]` times the previous matrix at `(k, e)`. -/
theorem dot2_at (x0 x1 : (⟨Cert.ReferenceIdeal.S200000x128, .f32⟩ : BufTy).Contents (Elt Ideal))
    (x2 x3 : (⟨Cert.ReferenceIdeal.S128x128, .f32⟩ : BufTy).Contents (Elt Ideal)) (h e : Fin 128) :
    ReadP.val_main_v14 (F := Ideal) x0 x1 x2 x3 (ix2 h e) = ∑ k : Fin 128, x3 (ix2 h k) * Spec.layer x2 (Spec.f1 x1 x0) k e := by
  rw [ReadP.val_main_v14_apply]
  refine Finset.sum_congr rfl fun k _ => ?_
  rw [show ReadP.lidx_main_v14 (ix2 h e) k = ix2 h k from funext fun a => Fin.ext (by match a with | ⟨0, _⟩ => rfl | ⟨1, _⟩ => rfl),
    show ReadP.ridx_main_v14 (ix2 h e) k = ix2 k e from funext fun a => Fin.ext (by match a with | ⟨0, _⟩ => rfl | ⟨1, _⟩ => rfl), layer1_at]

/-- The second residual layer at `(h, e)`: the rectifier of that contraction, plus the previous matrix at `(h, e)`. -/
theorem layer2_at (x0 x1 : (⟨Cert.ReferenceIdeal.S200000x128, .f32⟩ : BufTy).Contents (Elt Ideal))
    (x2 x3 : (⟨Cert.ReferenceIdeal.S128x128, .f32⟩ : BufTy).Contents (Elt Ideal)) (h e : Fin 128) :
    ReadP.val_main_v20 (F := Ideal) x0 x1 x2 x3 (ix2 h e) = Spec.layer x3 (Spec.layer x2 (Spec.f1 x1 x0)) h e := by
  rw [ReadP.val_main_v20_apply, ReadP.val_main_v19_apply, ReadP.val_main_v16_apply, ReadP.val_main_v18_apply, ReadP.val_main_v15_apply,
    ReadP.val_main_v17_apply, ReadP.val_main_cst_3_apply, ReadP.val_main_cst_4_apply, dot2_at, layer1_at]
  rfl

/-- The third residual layer's contraction at `(h, e)`: the sum over `k` of `w3[h,k]` times the previous matrix at `(k, e)`. -/
theorem dot3_at (x0 x1 : (⟨Cert.ReferenceIdeal.S200000x128, .f32⟩ : BufTy).Contents (Elt Ideal))
    (x2 x3 x4 : (⟨Cert.ReferenceIdeal.S128x128, .f32⟩ : BufTy).Contents (Elt Ideal)) (h e : Fin 128) :
    ReadP.val_main_v21 (F := Ideal) x0 x1 x2 x3 x4 (ix2 h e) = ∑ k : Fin 128, x4 (ix2 h k) * Spec.layer x3 (Spec.layer x2 (Spec.f1 x1 x0)) k e := by
  rw [ReadP.val_main_v21_apply]
  refine Finset.sum_congr rfl fun k _ => ?_
  rw [show ReadP.lidx_main_v21 (ix2 h e) k = ix2 h k from funext fun a => Fin.ext (by match a with | ⟨0, _⟩ => rfl | ⟨1, _⟩ => rfl),
    show ReadP.ridx_main_v21 (ix2 h e) k = ix2 k e from funext fun a => Fin.ext (by match a with | ⟨0, _⟩ => rfl | ⟨1, _⟩ => rfl), layer2_at]

/-- The third residual layer at `(h, e)`: the rectifier of that contraction, plus the previous matrix at `(h, e)`. -/
theorem layer3_at (x0 x1 : (⟨Cert.ReferenceIdeal.S200000x128, .f32⟩ : BufTy).Contents (Elt Ideal))
    (x2 x3 x4 : (⟨Cert.ReferenceIdeal.S128x128, .f32⟩ : BufTy).Contents (Elt Ideal)) (h e : Fin 128) :
    ReadP.val_main_v27 (F := Ideal) x0 x1 x2 x3 x4 (ix2 h e) = Spec.layer x4 (Spec.layer x3 (Spec.layer x2 (Spec.f1 x1 x0))) h e := by
  rw [ReadP.val_main_v27_apply, ReadP.val_main_v26_apply, ReadP.val_main_v23_apply, ReadP.val_main_v25_apply, ReadP.val_main_v22_apply,
    ReadP.val_main_v24_apply, ReadP.val_main_cst_5_apply, ReadP.val_main_cst_6_apply, dot3_at, layer2_at]
  rfl

/-! ## The second stage: `adj` times the 128 × 128 matrix, then the rectifier -/

/-- The last contraction at `(n, e)`: the sum over `h` of `adj[n,h]` times the three layers' matrix at `(h, e)`. -/
theorem dot4_at (x0 x1 : (⟨Cert.ReferenceIdeal.S200000x128, .f32⟩ : BufTy).Contents (Elt Ideal))
    (x2 x3 x4 : (⟨Cert.ReferenceIdeal.S128x128, .f32⟩ : BufTy).Contents (Elt Ideal)) (n : Fin 200000) (e : Fin 128) :
    ReadP.val_main_v28 (F := Ideal) x0 x1 x2 x3 x4 (ix2 n e)
      = ∑ h : Fin 128, x1 (ix2 n h) * Spec.f4 x0 x1 x2 x3 x4 h e := by
  rw [ReadP.val_main_v28_apply]
  refine Finset.sum_congr rfl fun k _ => ?_
  rw [show ReadP.lidx_main_v28 (ix2 n e) k = ix2 n k from funext fun a => Fin.ext (by match a with | ⟨0, _⟩ => rfl | ⟨1, _⟩ => rfl),
    show ReadP.ridx_main_v28 (ix2 n e) k = ix2 k e from funext fun a => Fin.ext (by match a with | ⟨0, _⟩ => rfl | ⟨1, _⟩ => rfl), layer3_at]
  rfl

/-- The result at `(n, e)`: the rectifier of that contraction. -/
theorem result_at (x0 x1 : (⟨Cert.ReferenceIdeal.S200000x128, .f32⟩ : BufTy).Contents (Elt Ideal))
    (x2 x3 x4 : (⟨Cert.ReferenceIdeal.S128x128, .f32⟩ : BufTy).Contents (Elt Ideal)) (n : Fin 200000) (e : Fin 128) :
    ReadP.val_main_v33 (F := Ideal) x0 x1 x2 x3 x4 (ix2 n e) = Spec.prop x1 (Spec.f4 x0 x1 x2 x3 x4) n e := by
  rw [ReadP.val_main_v33_apply, ReadP.val_main_v30_apply, ReadP.val_main_v32_apply, ReadP.val_main_v29_apply,
    ReadP.val_main_v31_apply, ReadP.val_main_cst_7_apply, ReadP.val_main_cst_8_apply, dot4_at]
  rfl

/-- THE REFERENCE IS THE SPECIFICATION: the last stage of the reference, as a function of the five argument arrays, is
    `Spec.G` of them, index by index. -/
theorem ref_is_G
    (x0 x1 : (⟨Cert.ReferenceIdeal.S200000x128, .f32⟩ : BufTy).Contents (Elt Ideal))
    (x2 x3 x4 : (⟨Cert.ReferenceIdeal.S128x128, .f32⟩ : BufTy).Contents (Elt Ideal)) :
    Cert.ReferenceIdeal.ReadP.val_main_v33 (F := Ideal) x0 x1 x2 x3 x4 = Cert.Spec.G x0 x1 x2 x3 x4 := by
  funext i
  obtain ⟨p, q, rfl⟩ : ∃ (p : Fin 200000) (q : Fin 128), i = ix2 p q := ⟨i 0, i 1, eq_ix2 i⟩
  rw [result_at]
  rfl

end Cert.RefValue

end
-- ==== Proof.Val.Value0Layers.lean ====
/-
  The three residual layers at the end of the first kernel's last grid point, on the extended reals, index
  by index: the stored value at row `h` and column `e` is the chain of three layers `lk (w · g) + g` applied to the
  rectified accumulator.  One lemma reads a rectified matrix product plus its operand at an index; it is used
  once per layer.
-/
import proofs.«147025_j65481071395086_1_alg».proof.Proof.KI.Common
import proofs.«147025_j65481071395086_1_alg».proof.Proof.Val.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Spec Idealize.ShloMosaic.ValueIdx

/-! ## The square product at an index -/

/-! The operand indices of the product of two 128 × 128 matrices, axis by axis: the output's row and the
    contraction coordinate on the left, the contraction coordinate and the output's column on the right. -/

theorem pay3_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem pay3_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem pay3_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem pay3_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The product into the zero accumulator, at row `h` and column `e`: the sum over the 128 contraction
    coordinates of the row's entries times the column's. -/
theorem pay3_prod_apply (a b : FVec Ideal S128x128 .bf16) (h e : Fin 128) :
    matmul dot_S128x128_S128x128_S128x128_1_0_0_1_n_n none a b (constant (F := Ideal) S128x128 .f32 0x00000000#32) (ix2 h e)
      = ∑ k : Fin 128, a (ix2 h k) * b (ix2 k e) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 h e) ((ValueIdx.contrEquiv1 dot_S128x128_S128x128_S128x128_1_0_0_1_n_n 128 rfl rfl).symm k) = ix2 h k := funext fun a => Fin.ext (by
    match a with
    | ⟨0, _⟩ => exact pay3_lhs_0 _ _
    | ⟨1, _⟩ => exact (pay3_lhs_1 _ _).trans hk)
  have er : dot_S128x128_S128x128_S128x128_1_0_0_1_n_n.rhsIdx (ix2 h e) ((ValueIdx.contrEquiv1 dot_S128x128_S128x128_S128x128_1_0_0_1_n_n 128 rfl rfl).symm k) = ix2 k e := funext fun a => Fin.ext (by
    match a with
    | ⟨0, _⟩ => exact (pay3_rhs_0 _ _).trans hk
    | ⟨1, _⟩ => exact pay3_rhs_1 _ _)
  rw [el, er]

/-! ## The rectifier and one layer at an index -/

/-- The leaky rectifier as the body spells it on a whole vector — compare with the zero splat, scale by the
    splat of the slope, select — is `lk` of the entry. -/
theorem pay3_lk_apply (x : Vec Ideal S128x128 .f32) (h e : Fin 128) :
    (select (cmpf .oge x (broadcast S128x128 (Scalar.ofBits .f32 0x00000000#32 : Ideal .f32))) x
        (mulf (broadcast S128x128 (Scalar.ofBits .f32 0x3D4CCCCD#32 : Ideal .f32)) x) : Vec Ideal S128x128 .f32) (ix2 h e)
      = lk (x (ix2 h e)) := rfl

/-- One residual layer as the body spells it — the product of the narrowed operands into the zero accumulator,
    rectified, plus the right operand — at row `h` and column `e`, where the right operand is `g` index by index:
    `lk (∑ k, w[h,k] · g[k,e]) + g[h,e]`. Narrowing is the identity on the extended reals. -/
theorem pay3_layer_apply (w x : Vec Ideal S128x128 .f32) (g : Fin 128 → Fin 128 → EReal)
    (hx : ∀ h e : Fin 128, x (ix2 h e) = g h e) (h e : Fin 128) :
    addf
        (select
          (cmpf .oge
            (matmul dot_S128x128_S128x128_S128x128_1_0_0_1_n_n none (truncf .bf16 w bitsLt_bf16_f32) (truncf .bf16 x bitsLt_bf16_f32) (constant (F := Ideal) S128x128 .f32 0x00000000#32))
            (broadcast S128x128 (Scalar.ofBits .f32 0x00000000#32 : Ideal .f32)))
          (matmul dot_S128x128_S128x128_S128x128_1_0_0_1_n_n none (truncf .bf16 w bitsLt_bf16_f32) (truncf .bf16 x bitsLt_bf16_f32) (constant (F := Ideal) S128x128 .f32 0x00000000#32))
          (mulf (broadcast S128x128 (Scalar.ofBits .f32 0x3D4CCCCD#32 : Ideal .f32))
            (matmul dot_S128x128_S128x128_S128x128_1_0_0_1_n_n none (truncf .bf16 w bitsLt_bf16_f32) (truncf .bf16 x bitsLt_bf16_f32) (constant (F := Ideal) S128x128 .f32 0x00000000#32))))
        x (ix2 h e)
      = layer w g h e := by
  simp only [addf_apply, select_apply, cmpf_apply, mulf_apply, broadcast_apply, pay3_prod_apply, truncf_apply, hx]
  rfl

/-! ## The stored value -/

/-- What the last point stores into the output block, at row `h` and column `e`: the three layers over the
    rectified accumulator. -/
theorem k0_pay3_apply (v16 v22 v32 v42 : Vec Ideal S128x128 .f32) (h e : Fin 128) :
    k0_pay3 (F := Ideal) v16 v22 v32 v42 (ix2 h e)
      = Cert.Spec.chain v22 v32 v42 (fun h e => Cert.Spec.lk (v16 (ix2 h e))) h e := by
  unfold k0_pay3 Cert.Spec.chain
  exact pay3_layer_apply v42 _ _
    (fun h e => pay3_layer_apply v32 _ _
      (fun h e => pay3_layer_apply v22 _ _ (fun h e => pay3_lk_apply v16 h e) h e) h e) h e

end Cert.KernelIdeal.Hand

end
-- ==== Proof.Val.Value0.lean ====
/-
  The value of the first region's output array at the extended reals: the 128 × 128 matrix `Spec.f4` of the five
  argument arrays.

  A tile's payload adds, to what the accumulator held, the product of the tile's two blocks contracted over the
  tile's 10000 rows (the narrowing of the operands is the identity on extended reals, the accumulator of the product
  is the zero splat).  Each input block is its array read at tile · 10000 + row.  So after point `n` the accumulator
  holds the sum over the tiles up to `n` of their products (induction on the point), and after the last point the
  sum over all 200000 rows: `Spec.s1`.  The last point's output payload is the rectifier of that, then three times
  "contract with a square matrix, rectify, add the input": `Spec.chain`.  Only the last point writes the output
  block back, and the block is the whole array.
-/
import proofs.«147025_j65481071395086_1_alg».proof.Proof.KI.Region0
import proofs.«147025_j65481071395086_1_alg».proof.Proof.Val.Spec
import proofs.«147025_j65481071395086_1_alg».proof.Proof.Val.Value0Layers
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Spec Idealize.ShloMosaic.ValueIdx

/-! ## A tile's payload at an index -/

/-- The tile product contracts axis 0 of both operands: on the left operand's axis 0 sits the contraction
    coordinate, -/
theorem lhs_tile_0 (i : S128x128.Idx) (q : dot_S10000x128_S10000x128_S128x128_0_0_1_1_n_n.contr.Idx) :
    (dot_S10000x128_S10000x128_S128x128_0_0_1_1_n_n.lhsIdx i q 0).val = (q ⟨0, by decide⟩).val :=
  dot_S10000x128_S10000x128_S128x128_0_0_1_1_n_n.lhsIdx_val_of_single rfl i q
/-- on its axis 1 the result's row, -/
theorem lhs_tile_1 (i : S128x128.Idx) (q : dot_S10000x128_S10000x128_S128x128_0_0_1_1_n_n.contr.Idx) :
    (dot_S10000x128_S10000x128_S128x128_0_0_1_1_n_n.lhsIdx i q 1).val = (i 0).val := by
  unfold DotDims.lhsIdx
  rw [dif_neg (show ¬(1 : Fin S10000x128.rank) ∈ dot_S10000x128_S10000x128_S128x128_0_0_1_1_n_n.lhsBatch by decide), dif_pos (show (1 : Fin S10000x128.rank) ∈ dot_S10000x128_S10000x128_S128x128_0_0_1_1_n_n.lhsNonContracting by decide)]
  rfl
/-- on the right operand's axis 0 the contraction coordinate again, -/
theorem rhs_tile_0 (i : S128x128.Idx) (q : dot_S10000x128_S10000x128_S128x128_0_0_1_1_n_n.contr.Idx) :
    (dot_S10000x128_S10000x128_S128x128_0_0_1_1_n_n.rhsIdx i q 0).val = (q ⟨0, by decide⟩).val :=
  dot_S10000x128_S10000x128_S128x128_0_0_1_1_n_n.rhsIdx_val_of_single rfl i q
/-- and on its axis 1 the result's column. -/
theorem rhs_tile_1 (i : S128x128.Idx) (q : dot_S10000x128_S10000x128_S128x128_0_0_1_1_n_n.contr.Idx) :
    (dot_S10000x128_S10000x128_S128x128_0_0_1_1_n_n.rhsIdx i q 1).val = (i 1).val := by
  unfold DotDims.rhsIdx
  rw [dif_neg (show ¬(1 : Fin S10000x128.rank) ∈ dot_S10000x128_S10000x128_S128x128_0_0_1_1_n_n.rhsBatch by decide), dif_pos (show (1 : Fin S10000x128.rank) ∈ dot_S10000x128_S10000x128_S128x128_0_0_1_1_n_n.rhsNonContracting by decide)]
  rfl

/-- The tile product into the zero accumulator, at row `h` and column `e`: the sum over the tile's rows `r` of
    `a[r,h] · b[r,e]`. -/
theorem tile_prod_apply (a b : FVec Ideal S10000x128 .bf16) (h e : Fin 128) :
    matmul dot_S10000x128_S10000x128_S128x128_0_0_1_1_n_n none a b (constant (F := Ideal) S128x128 .f32 0x00000000#32) (ix2 h e)
      = ∑ r : Fin 10000, a (ix2 r h) * b (ix2 r e) := by
  simp only [matmul]
  rw [Ideal.matmul_constant_zero_apply, ← Equiv.sum_comp (ValueIdx.contrEquiv1 dot_S10000x128_S10000x128_S128x128_0_0_1_1_n_n 10000 rfl rfl).symm]
  refine Finset.sum_congr rfl fun k _ => ?_
  have hk := ValueIdx.contrEquiv1_symm_val dot_S10000x128_S10000x128_S128x128_0_0_1_1_n_n 10000 rfl rfl k
  have el : dot_S10000x128_S10000x128_S128x128_0_0_1_1_n_n.lhsIdx (ix2 h e) ((ValueIdx.contrEquiv1 dot_S10000x128_S10000x128_S128x128_0_0_1_1_n_n 10000 rfl rfl).symm k) = ix2 k h := funext fun a => Fin.ext (by
    match a with
    | ⟨0, _⟩ => exact (lhs_tile_0 _ _).trans hk
    | ⟨1, _⟩ => exact lhs_tile_1 _ _)
  have er : dot_S10000x128_S10000x128_S128x128_0_0_1_1_n_n.rhsIdx (ix2 h e) ((ValueIdx.contrEquiv1 dot_S10000x128_S10000x128_S128x128_0_0_1_1_n_n 10000 rfl rfl).symm k) = ix2 k e := funext fun a => Fin.ext (by
    match a with
    | ⟨0, _⟩ => exact (rhs_tile_0 _ _).trans hk
    | ⟨1, _⟩ => exact rhs_tile_1 _ _)
  rw [el, er]

/-- What a point stores to the accumulator, at `(h, e)`: what it held there plus the tile's product.  The narrowing
    of the operands is the identity on the extended reals, and so is the cast of a matrix to its own shape. -/
theorem k0_pay2_apply (x0 x1 : Vec Ideal S10000x128 .f32) (s : Vec Ideal S128x128 .f32) (h e : Fin 128) :
    k0_pay2 x0 x1 s (ix2 h e) = s (ix2 h e) + ∑ r : Fin 10000, x0 (ix2 r h) * x1 (ix2 r e) := by
  unfold k0_pay2
  simp only [shapeCast_self, addf_apply, tile_prod_apply, truncf_apply]

/-- The fill the first point stores first is zero everywhere. -/
theorem k0_pay1_apply (h e : Fin 128) : k0_pay1 (F := Ideal) (ix2 h e) = 0 := by
  unfold k0_pay1
  simp only [shapeCast_self, broadcast_apply]
  exact Ideal.ofBits_zero_f32

/-! ## The blocks the body loads, read off their arrays -/

section Value0

variable (V : (c : Dev nD) → (b : Ref sig .tc) → Buf (Elt Ideal) ((c : Thread nD τ).loc b))

/-- The printed index maps over the twenty grid points: the two tall inputs' row block at point `t` is block `t`, in
    the one column block; the three square inputs and the output are their one block throughout. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The two tall inputs' blocks at point `t`, as matrices of 10000 rows. -/
abbrev adjBlk0 (c : Dev nD) (t : Fin cfg0.N) : Vec Ideal S10000x128 .f32 := iblk0 V c 0 t
abbrev featBlk0 (c : Dev nD) (t : Fin cfg0.N) : Vec Ideal S10000x128 .f32 := iblk0 V c 1 t

/-- The first tall input's block at point `t`, at row `r` and column `k`: row `t · 10000 + r` of its array. -/
theorem iblk0_0_apply (c : Dev nD) (t : Fin cfg0.N) (r : Fin 10000) (k : Fin 128) (n : Fin 200000)
    (hn : n.val = t.val * 10000 + r.val) :
    adjBlk0 V c t (ix2 r k) = (V c main_arg1 : S200000x128.Idx → EReal) (ix2 n k) := by
  obtain ⟨e0, e1, -⟩ := idx_facts0 t
  show V c main_arg1 (((cfg0.win 0).blk t).view.emb (ix2 r k)) = V c main_arg1 (ix2 n k)
  congr 1
  funext a
  apply Fin.ext
  match a with
  | ⟨0, _⟩ => show win0_0.index t (0 : Fin 2) * 10000 + 1 * r.val = n.val; rw [e0, hn]; omega
  | ⟨1, _⟩ => show win0_0.index t (1 : Fin 2) * 128 + 1 * k.val = k.val; rw [e1]; omega

/-- The second tall input's block at point `t`, likewise. -/
theorem iblk0_1_apply (c : Dev nD) (t : Fin cfg0.N) (r : Fin 10000) (k : Fin 128) (n : Fin 200000)
    (hn : n.val = t.val * 10000 + r.val) :
    featBlk0 V c t (ix2 r k) = (V c main_arg0 : S200000x128.Idx → EReal) (ix2 n k) := by
  obtain ⟨-, -, e0, e1, -⟩ := idx_facts0 t
  show V c main_arg0 (((cfg0.win 1).blk t).view.emb (ix2 r k)) = V c main_arg0 (ix2 n k)
  congr 1
  funext a
  apply Fin.ext
  match a with
  | ⟨0, _⟩ => show win0_1.index t (0 : Fin 2) * 10000 + 1 * r.val = n.val; rw [e0, hn]; omega
  | ⟨1, _⟩ => show win0_1.index t (1 : Fin 2) * 128 + 1 * k.val = k.val; rw [e1]; omega

/-- Each square input's block at any point is its whole array. -/
theorem iblk0_2_eq (c : Dev nD) (t : Fin cfg0.N) :
    (iblk0 V c 2 t : Vec Ideal S128x128 .f32) = (V c main_arg2 : S128x128.Idx → EReal) := by
  obtain ⟨-, -, -, -, e0, e1, -⟩ := idx_facts0 t
  funext j
  show V c main_arg2 (((cfg0.win 2).blk t).view.emb j) = V c main_arg2 j
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega
theorem iblk0_3_eq (c : Dev nD) (t : Fin cfg0.N) :
    (iblk0 V c 3 t : Vec Ideal S128x128 .f32) = (V c main_arg3 : S128x128.Idx → EReal) := by
  obtain ⟨-, -, -, -, -, -, e0, e1, -⟩ := idx_facts0 t
  funext j
  show V c main_arg3 (((cfg0.win 3).blk t).view.emb j) = V c main_arg3 j
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega
theorem iblk0_4_eq (c : Dev nD) (t : Fin cfg0.N) :
    (iblk0 V c 4 t : Vec Ideal S128x128 .f32) = (V c main_arg4 : S128x128.Idx → EReal) := by
  obtain ⟨-, -, -, -, -, -, -, -, e0, e1, -⟩ := idx_facts0 t
  funext j
  show V c main_arg4 (((cfg0.win 4).blk t).view.emb j) = V c main_arg4 j
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-! ## The accumulator after point `n`: the sum of the tiles' products up to `n` -/

/-- Tile `t`'s product at `(h, e)`, from the two tall arrays: the sum over the tile's 10000 rows (zero past the
    twenty tiles, where there is no such row). -/
def tileSum (a f : FVec Ideal SN .f32) (h e : Fin 128) (t : ℕ) : EReal :=
  if ht : t < 20 then
    ∑ r : Fin 10000, a (ix2 (⟨t * 10000 + r.val, by have := r.isLt; omega⟩ : Fin 200000) h)
      * f (ix2 (⟨t * 10000 + r.val, by have := r.isLt; omega⟩ : Fin 200000) e)
  else 0

/-- The product of the two blocks loaded at point `t` is tile `t`'s product of the arrays. -/
theorem tile_eq (c : Dev nD) (t : Fin cfg0.N) (h e : Fin 128) :
    ∑ r : Fin 10000, adjBlk0 V c t (ix2 r h) * featBlk0 V c t (ix2 r e)
      = tileSum (V c main_arg1) (V c main_arg0) h e t.val := by
  have ht : t.val < 20 := Nat.lt_of_lt_of_eq t.isLt N_0
  unfold tileSum
  rw [dif_pos ht]
  refine Finset.sum_congr rfl fun r _ => ?_
  rw [iblk0_0_apply V c t r h ⟨t.val * 10000 + r.val, by have := r.isLt; omega⟩ rfl,
    iblk0_1_apply V c t r e ⟨t.val * 10000 + r.val, by have := r.isLt; omega⟩ rfl]

/-- After point `n` the accumulator holds, at `(h, e)`, the sum of the products of the tiles up to `n`: by induction
    on the point, the first one adding its tile to the zero fill. -/
theorem accAt_apply (c : Dev nD) : ∀ (n : ℕ) (hn : n < cfg0.N) (h e : Fin 128),
    (accAt (F := Ideal) V c n hn : Vec Ideal S128x128 .f32) (ix2 h e)
      = ∑ t ∈ Finset.range (n + 1), tileSum (V c main_arg1) (V c main_arg0) h e t
  | 0, hn, h, e => by
    refine (k0_pay2_apply (adjBlk0 V c ⟨0, hn⟩) (featBlk0 V c ⟨0, hn⟩) (k0_pay1 (F := Ideal)) h e).trans ?_
    rw [k0_pay1_apply, Finset.sum_range_succ, Finset.sum_range_zero]
    exact congrArg (0 + ·) (tile_eq V c ⟨0, hn⟩ h e)
  | n + 1, hn, h, e => by
    refine (k0_pay2_apply (adjBlk0 V c ⟨n + 1, hn⟩) (featBlk0 V c ⟨n + 1, hn⟩) (accAt (F := Ideal) V c n (Nat.lt_of_succ_lt hn)) h e).trans ?_
    rw [accAt_apply c n (Nat.lt_of_succ_lt hn) h e, Finset.sum_range_succ (fun t => tileSum (V c main_arg1) (V c main_arg0) h e t) (n + 1)]
    exact congrArg (_ + ·) (tile_eq V c ⟨n + 1, hn⟩ h e)

/-- The sum of all twenty tiles' products is the contraction over all 200000 rows. -/
theorem sum_tiles (a f : FVec Ideal SN .f32) (h e : Fin 128) :
    ∑ t ∈ Finset.range 20, tileSum a f h e t = Cert.Spec.s1 a f h e := by
  rw [Finset.sum_range]
  unfold Cert.Spec.s1
  rw [Cert.Spec.sum_rows_tiled (fun n => a (ix2 n h) * f (ix2 n e))]
  refine Finset.sum_congr rfl fun t _ => ?_
  unfold tileSum
  rw [dif_pos t.isLt]

/-! ## The last point's output block, and the array -/

/-- What the last point leaves in the output block, at `(h, e)`: the three residual layers on the rectifier of the
    finished contraction, `Spec.f4` of the five arrays. -/
theorem out5_apply (c : Dev nD) (t : Fin cfg0.N) (ht : t.val = 19) (h e : Fin 128) :
    (out5 (F := Ideal) V c t : Vec Ideal S128x128 .f32) (ix2 h e)
      = Cert.Spec.f4 (V c main_arg0) (V c main_arg1) (V c main_arg2) (V c main_arg3) (V c main_arg4) h e := by
  unfold out5
  refine (k0_pay3_apply (accAt (F := Ideal) V c t.val t.isLt) (iblk0 V c 2 t) (iblk0 V c 3 t) (iblk0 V c 4 t) h e).trans ?_
  have hacc : (fun h e : Fin 128 => Cert.Spec.lk ((accAt (F := Ideal) V c t.val t.isLt : Vec Ideal S128x128 .f32) (ix2 h e)))
      = Cert.Spec.f1 (V c main_arg1) (V c main_arg0) := by
    funext h e
    rw [accAt_apply V c t.val t.isLt h e, ht, sum_tiles]
    rfl
  rw [hacc, iblk0_2_eq V c t, iblk0_3_eq V c t, iblk0_4_eq V c t]
  rfl

/-- What a point that writes the output block back writes is its block of `Spec.f4` of the arrays: only the last
    point does, and its block is the whole matrix. -/
theorem flushed0_5_eq (c : Dev nD) (t : Fin cfg0.N) (hf : (cfg0.win 5).flush t = true) :
    (dat0 (F := Ideal) V c).flushed 5 t
      = ((cfg0.win 5).blk t).view.read (Elt Ideal) (fun j : S128x128.Idx =>
          Cert.Spec.f4 (V c main_arg0) (V c main_arg1) (V c main_arg2) (V c main_arg3) (V c main_arg4) (j 0) (j 1)) := by
  have ht : t.val = 19 := by
    have h1 := (flush0_5 t).mp hf
    have h2 : t.val < 20 := Nat.lt_of_lt_of_eq t.isLt N_0
    omega
  show (cfg0.win 5).cut (grid0.coords t) ((dat0 V c).after 5 t) = _
  rw [after0_5]
  obtain ⟨-, -, -, -, -, -, -, -, -, -, e0, e1⟩ := idx_facts0 t
  funext j
  obtain ⟨h, e, rfl⟩ : ∃ (h : Fin 128) (e : Fin 128), j = ix2 h e := ⟨j 0, j 1, eq_ix2 j⟩
  have hh' : h.val < 128 := h.isLt
  have he' : e.val < 128 := e.isLt
  have hh : win0_5.index t (0 : Fin 2) * 128 + 1 * h.val < 128 := by rw [e0]; omega
  have he : win0_5.index t (1 : Fin 2) * 128 + 1 * e.val < 128 := by rw [e1]; omega
  show (out5 (F := Ideal) V c t : Vec Ideal S128x128 .f32) (ix2 h e)
    = Cert.Spec.f4 (V c main_arg0) (V c main_arg1) (V c main_arg2) (V c main_arg3) (V c main_arg4)
        ⟨win0_5.index t (0 : Fin 2) * 128 + 1 * h.val, hh⟩ ⟨win0_5.index t (1 : Fin 2) * 128 + 1 * e.val, he⟩
  have hrow : (⟨win0_5.index t (0 : Fin 2) * 128 + 1 * h.val, hh⟩ : Fin 128) = h :=
    Fin.ext (show win0_5.index t (0 : Fin 2) * 128 + 1 * h.val = h.val by rw [e0]; omega)
  have hcol : (⟨win0_5.index t (1 : Fin 2) * 128 + 1 * e.val, he⟩ : Fin 128) = e :=
    Fin.ext (show win0_5.index t (1 : Fin 2) * 128 + 1 * e.val = e.val by rw [e1]; omega)
  rw [hrow, hcol]
  exact out5_apply V c t ht h e

/-- An index of the output array is in point `t`'s block iff each coordinate is in the block's range on its axis. -/
theorem mem_blk0_5 (t : Fin cfg0.N) (i : S128x128.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v0).slice (win0_5.rect t)).set ↔ _
  rw [View.set_slice_whole, Rect.mem_set_unit]
  exact Iff.rfl

/-- Every index of the output array is in the last point's block, which is written back. -/
theorem cover0 (i : S128x128.Idx) :
    ∃ t : Fin cfg0.N, (cfg0.win 5).flush t = true ∧ i ∈ ((cfg0.win 5).blk t).view.set := by
  have hi0 : (i 0).val < 128 := (i 0).isLt
  have hi1 : (i 1).val < 128 := (i 1).isLt
  have hN : cfg0.N = 20 := N_0
  let t : Fin cfg0.N := ⟨19, by rw [hN]; omega⟩
  obtain ⟨-, -, -, -, -, -, -, -, -, -, e0, e1⟩ := idx_facts0 t
  refine ⟨t, (flush0_5 t).mpr rfl, ?_⟩
  rw [mem_blk0_5]
  intro a
  match a with
  | ⟨0, _⟩ => show win0_5.index t (0 : Fin 2) * 128 ≤ (i 0).val ∧ (i 0).val < win0_5.index t (0 : Fin 2) * 128 + 128; rw [e0]; omega
  | ⟨1, _⟩ => show win0_5.index t (1 : Fin 2) * 128 ≤ (i 1).val ∧ (i 1).val < win0_5.index t (1 : Fin 2) * 128 + 128; rw [e1]; omega

/-- THE OUTPUT ARRAY after the twenty points: `Spec.f4` of the five argument arrays, index by index. -/
theorem value0 (c : Dev nD) :
    (dat0 (F := Ideal) V c).arrAt 5 cfg0.N
      = fun j => Cert.Spec.f4 (V c main_arg0) (V c main_arg1) (V c main_arg2) (V c main_arg3) (V c main_arg4) (j 0) (j 1) :=
  (dat0 (F := Ideal) V c).arrAt_eq_of_cover 5
    (fun j : S128x128.Idx => Cert.Spec.f4 (V c main_arg0) (V c main_arg1) (V c main_arg2) (V c main_arg3) (V c main_arg4) (j 0) (j 1))
    (fun t hf => flushed0_5_eq V c t hf) cover0

end Value0

end Cert.KernelIdeal.Hand

end
-- ==== Proof.Val.Value1.lean ====
/-
  The value of the second region's output array on the extended reals: after the twenty grid points, row `n`
  and column `e` of the array is the leaky rectifier of the sum, over the 128 contraction coordinates, of row `n`
  of the first operand times column `e` of the 128 × 128 matrix the second operand holds.  First what one
  point's body stores, index by index; then each point's block placed in the array, and the blocks' cover.
-/
import proofs.«147025_j65481071395086_1_alg».proof.Proof.KI.Region1
import proofs.«147025_j65481071395086_1_alg».proof.Proof.Val.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Spec Idealize.ShloMosaic.ValueIdx

/-! ## The payload at an index -/

/-- The zero offsets of a whole-buffer rectangle, as the lemmas about such rectangles ask for them. -/
private theorem zeroOffs : (![0, 0] : Fin 2 → Nat) = fun _ => 0 := by
  funext a; fin_cases a <;> rfl

/-! The operand indices of the product of a block of rows by the square matrix, axis by axis: the output's row
    and the contraction coordinate on the left, the contraction coordinate and the output's column on the right. -/

theorem lhs_prop_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_prop_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_prop_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_prop_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator, at row `r` and column `e`: the sum over the 128 contraction
    coordinates of the row's entries times the column's. -/
theorem prod1_apply (a : FVec Ideal S10000x128 .bf16) (b : FVec Ideal S128x128 .bf16) (r : Fin 10000) (e : Fin 128) :
    matmul dot_S10000x128_S128x128_S10000x128_1_0_0_1_n_n none a b (constant (F := Ideal) S10000x128 .f32 0x00000000#32) (ix2 r e)
      = ∑ k : Fin 128, a (ix2 r k) * b (ix2 k e) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r e) ((ValueIdx.contrEquiv1 dot_S10000x128_S128x128_S10000x128_1_0_0_1_n_n 128 rfl rfl).symm k) = ix2 r k := funext fun a => Fin.ext (by
    match a with
    | ⟨0, _⟩ => exact lhs_prop_0 _ _
    | ⟨1, _⟩ => exact (lhs_prop_1 _ _).trans hk)
  have er : dot_S10000x128_S128x128_S10000x128_1_0_0_1_n_n.rhsIdx (ix2 r e) ((ValueIdx.contrEquiv1 dot_S10000x128_S128x128_S10000x128_1_0_0_1_n_n 128 rfl rfl).symm k) = ix2 k e := funext fun a => Fin.ext (by
    match a with
    | ⟨0, _⟩ => exact (rhs_prop_0 _ _).trans hk
    | ⟨1, _⟩ => exact rhs_prop_1 _ _)
  rw [el, er]

/-- What the body stores, at row `r` and column `e` of the block: the leaky rectifier of the row of the loaded
    block against the column of the loaded matrix. The narrowing of the operands is the identity on the
    extended reals, and so is the cast of the matrix to its own shape. -/
theorem k1_pay1_apply (x0 : Vec Ideal S10000x128 .f32) (x1 : Vec Ideal S128x128 .f32) (r : Fin 10000) (e : Fin 128) :
    k1_pay1 x0 x1 (ix2 r e) = lk (∑ k : Fin 128, x0 (ix2 r k) * x1 (ix2 k e)) := by
  unfold k1_pay1
  simp only [shapeCast_self, select_apply, cmpf_apply, mulf_apply, broadcast_apply, prod1_apply, truncf_apply]
  rfl

/-- The output staging buffer after the body, at row `r` and column `e`. -/
theorem out1_2_apply (x0 : Vec Ideal S10000x128 .f32) (x1 : Vec Ideal S128x128 .f32) (r : Fin 10000) (e : Fin 128) :
    out1_2 x0 x1 (ix2 r e) = lk (∑ k : Fin 128, x0 (ix2 r k) * x1 (ix2 k e)) := by
  unfold out1_2
  rw [View.canon_unit_zero zeroOffs]
  simp only [View.ld_unit_zero (S := S10000x128) zeroOffs, View.ld_unit_zero (S := S128x128) zeroOffs]
  exact k1_pay1_apply x0 x1 r e

/-! ## From blocks to the array -/

section Value1

variable (V : (c : Dev nD) → (b : Ref sig .tc) → Buf (Elt Ideal) ((c : Thread nD τ).loc b))

/-- The printed index maps over the twenty grid points: the row blocks of the input and of the output are
    block `t` at point `t`, in the one column block; the matrix is its one block throughout. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row block of the first operand at point `t`, at row `r` and column `k`: row `t · 10000 + r` of the array. -/
theorem iblk1_0_apply (c : Dev nD) (t : Fin cfg1.N) (r : Fin 10000) (k : Fin 128) (n : Fin 200000)
    (hn : n.val = t.val * 10000 + r.val) :
    (iblk1 V c 0 t : Vec Ideal S10000x128 .f32) (ix2 r k) = (V c main_arg1 : S200000x128.Idx → EReal) (ix2 n k) := by
  obtain ⟨e0, e1, -, -, -, -⟩ := idx_facts1 t
  show V c main_arg1 (((cfg1.win 0).blk t).view.emb (ix2 r k)) = V c main_arg1 (ix2 n k)
  congr 1
  funext a
  apply Fin.ext
  match a with
  | ⟨0, _⟩ => show win1_0.index t (0 : Fin 2) * 10000 + 1 * r.val = n.val; rw [e0, hn]; omega
  | ⟨1, _⟩ => show win1_0.index t (1 : Fin 2) * 128 + 1 * k.val = k.val; rw [e1]; omega

/-- The matrix's block at any point is the whole matrix. -/
theorem iblk1_1_apply (c : Dev nD) (t : Fin cfg1.N) (k e : Fin 128) :
    (iblk1 V c 1 t : Vec Ideal S128x128 .f32) (ix2 k e) = (V c main_v0 : S128x128.Idx → EReal) (ix2 k e) := by
  obtain ⟨-, -, e2, e3, -, -⟩ := idx_facts1 t
  show V c main_v0 (((cfg1.win 1).blk t).view.emb (ix2 k e)) = V c main_v0 (ix2 k e)
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * e.val = e.val; rw [e3]; omega

/-- What point `t` writes back is block `t` of the rectified product of the first operand's rows by `g`. -/
theorem flushed1_2_eq (c : Dev nD) (g : Fin 128 → Fin 128 → EReal)
    (hg : ∀ h e : Fin 128, V c main_v0 (ix2 h e) = g h e) (t : Fin cfg1.N) :
    (dat1 (F := Ideal) V c).flushed 2 t
      = ((cfg1.win 2).blk t).view.read (Elt Ideal) (fun j : S200000x128.Idx => Cert.Spec.prop (V c main_arg1) g (j 0) (j 1)) := by
  show (cfg1.win 2).cut (grid1.coords t) ((dat1 V c).after 2 t) = _
  rw [after1_2]
  obtain ⟨-, -, -, -, e4, e5⟩ := idx_facts1 t
  funext j
  obtain ⟨r, e, rfl⟩ : ∃ (r : Fin 10000) (e : Fin 128), j = ix2 r e := ⟨j 0, j 1, eq_ix2 j⟩
  have ht : t.val < 20 := Nat.lt_of_lt_of_eq t.isLt N_1
  have hr : r.val < 10000 := r.isLt
  have he' : e.val < 128 := e.isLt
  have hn : win1_2.index t (0 : Fin 2) * 10000 + 1 * r.val < 200000 := by rw [e4]; omega
  have he : win1_2.index t (1 : Fin 2) * 128 + 1 * e.val < 128 := by rw [e5]; omega
  show out1_2 (iblk1 V c 0 t) (iblk1 V c 1 t) (ix2 r e)
    = Cert.Spec.prop (V c main_arg1) g ⟨win1_2.index t (0 : Fin 2) * 10000 + 1 * r.val, hn⟩ ⟨win1_2.index t (1 : Fin 2) * 128 + 1 * e.val, he⟩
  generalize hrow : (⟨win1_2.index t (0 : Fin 2) * 10000 + 1 * r.val, hn⟩ : Fin 200000) = n
  have hnv : n.val = t.val * 10000 + r.val := by
    rw [← hrow]; show win1_2.index t (0 : Fin 2) * 10000 + 1 * r.val = _; rw [e4]; omega
  have hcol : (⟨win1_2.index t (1 : Fin 2) * 128 + 1 * e.val, he⟩ : Fin 128) = e :=
    Fin.ext (show win1_2.index t (1 : Fin 2) * 128 + 1 * e.val = e.val by rw [e5]; omega)
  rw [hcol, out1_2_apply]
  unfold Cert.Spec.prop
  refine congrArg lk (Finset.sum_congr rfl fun k _ => ?_)
  rw [iblk1_0_apply V c t r k n hnv, iblk1_1_apply V c t k e, hg]

/-- An index of the output array is in point `t`'s block iff each coordinate is in the block's range on its axis. -/
theorem mem_blk1_2 (t : Fin cfg1.N) (i : S200000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v1).slice (win1_2.rect t)).set ↔ _
  rw [View.set_slice_whole, Rect.mem_set_unit]
  exact Iff.rfl

/-- Every index of the output array is in the block of the point its row falls in: row `n` in block `n / 10000`. -/
theorem cover1 (i : S200000x128.Idx) :
    ∃ t : Fin cfg1.N, (cfg1.win 2).flush t = true ∧ i ∈ ((cfg1.win 2).blk t).view.set := by
  have hi0 : (i 0).val < 200000 := (i 0).isLt
  have hi1 : (i 1).val < 128 := (i 1).isLt
  have hN : cfg1.N = 20 := N_1
  let t : Fin cfg1.N := ⟨(i 0).val / 10000, by rw [hN]; omega⟩
  obtain ⟨-, -, -, -, e4, e5⟩ := idx_facts1 t
  have ht : t.val = (i 0).val / 10000 := rfl
  refine ⟨t, flush1_2 t, ?_⟩
  rw [mem_blk1_2]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 128 ≤ (i 1).val ∧ (i 1).val < win1_2.index t (1 : Fin 2) * 128 + 128; rw [e5]; omega

/-- THE OUTPUT ARRAY after the twenty points: row `n`, column `e` is the leaky rectifier of row `n` of the first
    operand against column `e` of the matrix `g` the second operand holds. -/
theorem value1 (c : Dev nD) (g : Fin 128 → Fin 128 → EReal)
    (hg : ∀ h e : Fin 128, V c main_v0 (ix2 h e) = g h e) :
    (dat1 (F := Ideal) V c).arrAt 2 cfg1.N = fun j => Cert.Spec.prop (V c main_arg1) g (j 0) (j 1) :=
  (dat1 (F := Ideal) V c).arrAt_eq_of_cover 2 (fun j : S200000x128.Idx => Cert.Spec.prop (V c main_arg1) g (j 0) (j 1))
    (fun t _ => flushed1_2_eq V c g hg t) cover1

end Value1

end Cert.KernelIdeal.Hand

end
-- ==== Proof.Val.KernelValue.lean ====
/-
  The idealized kernel's result array, read off its run, is the specification `Cert.Spec.G` of the argument
  arrays: the second region's output is `lk (adj · g)` row by row for the 128 × 128 operand `g` it is handed,
  and that operand is what the first region wrote: the three residual layers over the rectified contraction
  of `adj` and `feature` over all 200000 rows.
-/
import proofs.«147025_j65481071395086_1_alg».proof.Proof.KI.Run
import proofs.«147025_j65481071395086_1_alg».proof.Proof.Val.Value0
import proofs.«147025_j65481071395086_1_alg».proof.Proof.Val.Value1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Cert.Spec Idealize.ShloMosaic.ValueIdx

variable (m : (ℓ : Loc nD τ sig) → Buf (Elt Ideal) ℓ) (ρ : Dev nD → PrngReg)

/-- What the run leaves in the result buffer is `G` of the launch contents of the five arguments. -/
theorem result_is_G (c : Dev nD) :
    W4 (F := Ideal) m c (Proc.devRef .tc main_v1)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) := by
  rw [W4_main_v1, value1 (V2 m) c
    (Cert.Spec.f4 (m ((c : Thread nD τ).loc main_arg0)) (m ((c : Thread nD τ).loc main_arg1))
      (m ((c : Thread nD τ).loc main_arg2)) (m ((c : Thread nD τ).loc main_arg3)) (m ((c : Thread nD τ).loc main_arg4)))
    (fun h e => by rw [V2_main_v0, value0 (V1 m) c]; rfl), V2_main_arg1]
  rfl

/-- The idealized kernel's run with its result named: every weakly fair execution terminates with the result
    buffer at `G` of the arguments and the arguments unchanged. -/
theorem run_value : θ_run defs (onTc (τ := τ) (main (F := Ideal))) ⟨m, fun _ => 0, ρ⟩ (fun r => ∀ c : Dev nD,
      r.2.mem ((c.tc : Thread nD τ).loc main_v1)
        = Cert.Spec.G (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1 (by decide))).trans (result_is_G m c),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c)⟩) (run_main m ρ)

end Cert.KernelIdeal.Hand

end
-- ==== Proof.lean ====
/-
  The certificate of the two-stage hypergraph propagation kernel against its jnp reference.

  Both programs compute, on the extended reals,
      f1 = lk (adjᵀ · feature),   f_{i+1} = lk (w_i · f_i) + f_i  (i = 1, 2, 3),   out = lk (adj · f4),
  with lk the leaky rectifier at the shared slope literal.  The kernel does it in two grid regions: the first
  accumulates adjᵀ · feature over twenty row tiles in a scratch buffer and, at the last tile, applies the three
  residual layers; the second multiplies each row tile of adj by the result.  The two sides differ only by the
  tiling of the long sum (associativity and commutativity of addition) and by format changes that are the
  identity on the extended reals; no finiteness of the inputs is used.

  The frames of the two kernel programs are proved over the several-regions launch (Proof/KI, Proof/K); the
  reference's frame is its run with the result dropped; the idealization rewrote nothing, so `preserves` is
  trivial; `algebraic` joins the kernel's run (Proof/Val/KernelValue) and the reference's (Proof/Val/RefValue)
  at the one specification `Cert.Spec.G`.
-/
import proofs.«147025_j65481071395086_1_alg».proof.Defs
import proofs.«147025_j65481071395086_1_alg».proof.Proof.Gen.Kernel
import proofs.«147025_j65481071395086_1_alg».proof.Proof.Gen.KernelIdeal
import proofs.«147025_j65481071395086_1_alg».proof.Proof.Gen.ReferenceIdeal
import proofs.«147025_j65481071395086_1_alg».proof.Proof.Gen.Pre_finite_inputs
import proofs.«147025_j65481071395086_1_alg».proof.Proof.K.Run
import proofs.«147025_j65481071395086_1_alg».proof.Proof.KI.Run
import proofs.«147025_j65481071395086_1_alg».proof.Proof.RefRun
import proofs.«147025_j65481071395086_1_alg».proof.Proof.RefRead
import proofs.«147025_j65481071395086_1_alg».proof.Proof.Val.RefValue
import proofs.«147025_j65481071395086_1_alg».proof.Proof.Val.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end at `Cert.Spec.G` of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v33_eq, Cert.RefValue.ref_is_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
